-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S4096x4096 : Shape := ⟨2, ![4096, 4096]⟩
abbrev S128 : Shape := ⟨1, ![128]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S128x4096 .f32) (main_arg1 : FVec F S4096x4096 .f32) (main_arg2 : FVec F S128 .f32) (main_arg3 : FVec F S128 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S128x4096 : Shape := ⟨2, ![128, 4096]⟩
abbrev S4096x4096 : Shape := ⟨2, ![4096, 4096]⟩
abbrev S128 : Shape := ⟨1, ![128]⟩
abbrev S128x1 : Shape := ⟨2, ![128, 1]⟩
abbrev S128x1024 : Shape := ⟨2, ![128, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 14
  | .vmem => 15
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x4096, .f32⟩
  | .hbm, ⟨6, _⟩ => ⟨S128x4096, .f32⟩
  | .hbm, ⟨7, _⟩ => ⟨S128x4096, .bf16⟩
  | .hbm, ⟨8, _⟩ => ⟨S128x1, .f32⟩
  | .hbm, ⟨9, _⟩ => ⟨S128x4096, .f32⟩
  | .hbm, ⟨10, _⟩ => ⟨S128x4096, .f32⟩
  | .hbm, ⟨11, _⟩ => ⟨S128x4096, .bf16⟩
  | .hbm, ⟨12, _⟩ => ⟨S4096x4096, .bf16⟩
  | .hbm, ⟨13, _⟩ => ⟨S4096x4096, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  dot_S128x1024_S128x1024_S1024x1024_0_0_1_1_n_n_wf : DotDims.WF S128x1024 S128x1024 S1024x1024 [0] [0] [1] [1] [] []
  dot_S512x1024_S1024x512_S1024x1024_0_1_1_0_n_n_wf : DotDims.WF S512x1024 S1024x512 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x4096.size a
  hwx0_0 : ∀ i : grid0.Coords, EltTy.bits .bf16 = 32 ∨ (Rect.block (s := S128x4096) S128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .bf16 = 32 ∨ (Rect.block (s := S128x4096) S128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S4096x4096.size a
  hwx1_2 : ∀ i : grid1.Coords, EltTy.bits .f32 = 32 ∨ (Rect.block (s := S4096x4096) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf
def dot_S512x1024_S1024x512_S1024x1024_0_1_1_0_n_n : DotDims S512x1024 S1024x512 S1024x1024 where
  lhsContracting := [0]
  rhsContracting := [1]
  lhsNonContracting := [1]
  rhsNonContracting := [0]
  lhsBatch := []
  rhsBatch := []
  wf := dot_S512x1024_S1024x512_S1024x1024_0_1_1_0_n_n_wf

abbrev win0_0 : Pipeline.Window sig grid0 :=
  Pipeline.Window.ofSpec (Memref.whole main_v3) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S128x4096 : Shape := ⟨2, ![128, 4096]⟩
abbrev S4096x4096 : Shape := ⟨2, ![4096, 4096]⟩
abbrev S128 : Shape := ⟨1, ![128]⟩
abbrev S128x1 : Shape := ⟨2, ![128, 1]⟩

abbrev nBuf : Space → Nat
  | .hbm => 15
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S4096x4096, .f32⟩
  | .hbm, ⟨2, _⟩ => ⟨S128, .f32⟩
  | .hbm, ⟨3, _⟩ => ⟨S128, .f32⟩
  | .hbm, ⟨4, _⟩ => ⟨S128x1, .f32⟩
  | .hbm, ⟨5, _⟩ => ⟨S128x4096, .f32⟩
  | .hbm, ⟨6, _⟩ => ⟨S128x4096, .f32⟩
  | .hbm, ⟨7, _⟩ => ⟨S128x1, .f32⟩
  | .hbm, ⟨8, _⟩ => ⟨S128x4096, .f32⟩
  | .hbm, ⟨9, _⟩ => ⟨S128x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  transposes_S4096x4096_S4096x4096_1_0 : S4096x4096.Transposes [1, 0] S4096x4096
  dot_S128x4096_S128x4096_S4096x4096_0_0_1_1_n_n_wf : DotDims.WF S128x4096 S128x4096 S4096x4096 [0] [0] [1] [1] [] []
  dot_S4096x4096_S4096x4096_S4096x4096_1_0_0_1_n_n_wf : DotDims.WF S4096x4096 S4096x4096 S4096x4096 [1] [0] [0] [1] [] []

variable [Facts₀]

def dot_S128x4096_S128x4096_S4096x4096_0_0_1_1_n_n : DotDims S128x4096 S128x4096 S4096x4096 where
  lhsContracting := [0]
  rhsContracting := [0]
  lhsNonContracting := [1]
  rhsNonContracting := [1]
  lhsBatch := []
  rhsBatch := []
  wf := dot_S128x4096_S128x4096_S4096x4096_0_0_1_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Kernel.Region0.lean ====
/- The first kernel region (the score kernel), at any contents `V` of the core's buffers when the region is entered.
   At grid point (i, j) the body reads column block i of the scaled query features and column block j of the scaled key
   features (each 128 × 1024) and stores the 1024 × 1024 block of exponentials of their inner products; it also loads
   its output buffer once, a value nothing uses. Stated here: what each window's staging buffer holds at a point, the
   body's triple, the region's proof data and its body obligation. -/
import proofs.«154450_j74586402063284_1_alg».proof.Proof.Gen.Kernel.Launch
import proofs.«154450_j74586402063284_1_alg».proof.Proof.Gen.Kernel.Skeleton
import proofs.«154450_j74586402063284_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a point that does
    not fetch has the block index of the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole staging buffer -/

abbrev rIn0 : Rect S128x1024 := Rect.unit (s := S128x1024) ![0, 0] S128x1024.size inb_S128x1024_S128x1024_0_0
abbrev rOut0 : Rect S1024x1024 := Rect.unit (s := S1024x1024) ![0, 0] S1024x1024.size inb_S1024x1024_S1024x1024_0_0

/-- The output buffer after the body: its one store, of the exponentiated products of the two input blocks. -/
def out0_2 (x0 x1 : Vec F S128x1024 .bf16) : Vec F S1024x1024 .bf16 :=
  View.canon [⟨rOut0, k0_pay1 (View.ld x0 rIn0) (View.ld x1 rIn0)⟩]

/-- That store covers the buffer. -/
theorem cover0_2 (p0 : Vec F S1024x1024 .bf16) (y : S1024x1024.Idx) :
    ∃ pc ∈ ([⟨rOut0, p0⟩] : List (View.Piece (Elt F) S1024x1024 .bf16)), y ∈ pc.1.set :=
  View.cover_of_tiled [⟨rOut0, p0⟩] S1024x1024.size (by rfl) y

/-! ## The body's triple -/

set_option maxHeartbeats 1000000 in
/-- On whole staging buffers, the inputs' at contents `x0`, `x1` and the output's at anything, the body runs to the
    continuation holding the inputs as they were and the output at `out0_2 x0 x1`. -/
theorem sound_kernel0 (c : Dev nD) (E : Set ℕ) (i : grid0.Coords) (arg2 : Memref sig .tc .vmem S128x1024 .bf16) (harg2 : arg2.IsWhole)
    (arg3 : Memref sig .tc .vmem S128x1024 .bf16) (harg3 : arg3.IsWhole) (arg4 : Memref sig .tc .vmem S1024x1024 .bf16) (harg4 : arg4.IsWhole)
    (x0 x1 : Vec F S128x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__score_kernel i arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the first region on core `c`: the arrays as the region finds them; after the body at point `t`
    each input's buffer at its block and the output's at `out0_2` of the two input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Runs.lean ====
/- The second kernel region's body (the edge-normalising kernel) on any staging buffers, case by case.
   The grid is 4 × 4 × 8; the last coordinate k walks the 4096 contracted nodes in blocks of 512. At k = 0 the body
   zeroes its accumulator; at every k it adds the product of the score block (512 × 1024, rows = contracted nodes) with
   the adjacency block (1024 × 512, columns = contracted nodes); at k = 7 it divides the diagonal score block by the
   accumulator into the output block. Three control cases: A (k = 0), B (0 < k < 7), C (k = 7). -/
import proofs.«154450_j74586402063284_1_alg».proof.Proof.Gen.Kernel.Launch
import proofs.«154450_j74586402063284_1_alg».proof.Proof.Gen.Kernel.Skeleton
import proofs.«154450_j74586402063284_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, and where they hold on the grid -/

/-- The body's first branch (reset the accumulator): taken where the last grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second branch (divide and store the output): taken where the last grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the output window is idle (nothing is stored into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 7 it is live. -/
theorem liveAt1_3 : ∀ t : Fin cfg1.N, cond1_1 (grid1.coords t) → cfg1.idle 3 (grid1.coords t) = false := by decide +kernel

/-! ## The body's triple in each case -/

/-- Every access of the body starts at the origin of its buffer: the offsets are the zero function. -/
private theorem hz00 : (![0, 0] : Fin 2 → Nat) = fun _ => 0 := funext fun a => by fin_cases a <;> rfl

set_option maxHeartbeats 2000000 in
/-- Case A (k = 0): the accumulator, found at anything, ends at the first block product added to zero; the output buffer
    is handed back as found. -/
theorem sound_kernel1_A (c : Dev nD) (E : Set ℕ) (i : grid1.Coords) (hc0 : cond1_0 i) (hc1 : ¬cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xo : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x2 (k1_pay1 (F := F)))) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (fun y => ⟨_, List.Mem.head _, View.mem_set_unit_zero hz00 inb_S1024x1024_S1024x1024_0_0 y⟩), View.canon_cons_unit_zero hz00]
  simp only [View.readAt_eq_ld, View.ld_unit_zero (S := S512x1024) hz00, View.ld_unit_zero (S := S1024x512) hz00,
    View.ld_unit_zero (S := S1024x1024) hz00, View.readCov_unit_zero (S := S1024x1024) _ hz00]

set_option maxHeartbeats 2000000 in
/-- Case B (0 < k < 7): the accumulator, found at `xs`, ends at `xs` plus this point's block product; the output buffer
    is handed back as found. -/
theorem sound_kernel1_B (c : Dev nD) (E : Set ℕ) (i : grid1.Coords) (hc0 : ¬cond1_0 i) (hc1 : ¬cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x2 xs)) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz00 inb_S1024x1024_S1024x1024_0_0 y⟩), View.canon_unit_zero hz00]
  simp only [View.readAt_eq_ld, View.ld_unit_zero (S := S512x1024) hz00, View.ld_unit_zero (S := S1024x512) hz00,
    View.ld_unit_zero (S := S1024x1024) hz00]

set_option maxHeartbeats 2000000 in
/-- Case C (k = 7): the accumulator ends at `xs` plus this point's block product, and the output buffer, found at
    anything, ends at the diagonal score block divided by that accumulator. -/
theorem sound_kernel1_C (c : Dev nD) (E : Set ℕ) (i : grid1.Coords) (hc0 : ¬cond1_0 i) (hc1 : cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 x1 (k1_pay2 x0 x2 xs)) ∗ owns (c : Thread nD τ) arg7 fullShare (k1_pay2 x0 x2 xs)) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_singleton_self _, View.mem_set_unit_zero hz00 inb_S1024x1024_S1024x1024_0_0 y⟩), View.canon_unit_zero hz00]
    simp only [View.readAt_eq_ld, View.ld_unit_zero (S := S512x1024) hz00, View.ld_unit_zero (S := S1024x512) hz00,
    View.ld_unit_zero (S := S1024x1024) hz00, View.readCov_unit_zero (S := S1024x1024) _ hz00]
  iexists _; isplitr
  swap; · iexact H4
  ipureintro
  sl_unfold_words
  rw [View.read_writes_eq_canon _ _ _ (fun y => ⟨_, List.mem_singleton_self _, View.mem_set_unit_zero hz00 inb_S1024x1024_S1024x1024_0_0 y⟩), View.canon_unit_zero hz00]
  simp only [View.readAt_eq_ld, View.ld_unit_zero (S := S512x1024) hz00, View.ld_unit_zero (S := S1024x512) hz00,
    View.ld_unit_zero (S := S1024x1024) hz00]

end Cert.Kernel.Hand

end
-- ==== Proof.Kernel.Region1.lean ====
/- The second kernel region (the edge-normalising kernel), at any contents `V` of the core's buffers when the region is
   entered: what each window's staging buffer holds at a point, the accumulator the kernel carries from point to point,
   the region's proof data and its body obligation. The score array is read through two windows at once (a 512 × 1024
   block of rows k, columns i, and the 1024 × 1024 diagonal block (i, j)), each holding half of the array's share. -/
import proofs.«154450_j74586402063284_1_alg».proof.Proof.Kernel.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- The accumulator after the body at position `n`: at the first point of a run of eight (k = 0) the point's block
    product added to zero, afterwards added to what the point before left. -/
def accAt1 (c : Dev nD) : (n : ℕ) → n < cfg1.N → Vec F S1024x1024 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (accAt1 c n (Nat.lt_of_succ_lt hn))

/-- At a point with k = 0 the accumulator restarts. -/
theorem accAt1_reset (c : Dev nD) (t : Fin cfg1.N) (h0 : t.val % 8 = 0) :
    accAt1 V c t.val t.isLt = k1_pay2 (iblk1 V c 0 t) (iblk1 V c 2 t) (k1_pay1 (F := F)) := by
  obtain ⟨n, hn⟩ := t
  cases n with
  | zero => rfl
  | succ n => exact if_pos h0

/-- At a point with k ≠ 0 it adds to what the point before left. -/
theorem accAt1_step (c : Dev nD) (t : Fin cfg1.N) (h0 : ¬t.val % 8 = 0) :
    accAt1 V c t.val t.isLt = k1_pay2 (iblk1 V c 0 t) (iblk1 V c 2 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the output buffer holds after the body at a point with k = 7: the diagonal score block divided by the
    accumulator. (At the other points the window is idle and this is not consulted.) -/
def outAt1 (c : Dev nD) (t : Fin cfg1.N) : Vec F S1024x1024 .f32 :=
  k1_pay3 (iblk1 V c 1 t) (accAt1 V c t.val t.isLt)

/-! ## The invariant between points -/

/-- The accumulator's buffer, as the kernel is handed it. -/
abbrev scM1 : Memref sig .tc .vmem S1024x1024 .f32 := Memref.whole cc1_scratch0

/-- The first region's six staging buffers, each whole at some contents: scoped buffers this region never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- Before the first point: the scoped buffers no window stages (the accumulator's among them, at anything) and the
    generator register. After point `n`: the same with the accumulator's buffer at what point `n` left in it. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- The scoped buffers no window of this region stages, spelt out: the six and the accumulator's. -/
theorem PhiA1_eq (c : Dev nD) :
    (Pipeline.ΦA spec1 c : sProp 𝕄) = iprop((rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ (_ : sProp 𝕄)
    iintro ⟨⟨H0, H1, H2, H3, H4, H5, HS⟩, Hg⟩
    isplitr [Hg]
    · isplitr [HS]
      · isplitl [H0]; · iexact H0
        isplitl [H1]; · iexact H1
        isplitl [H2]; · iexact H2
        isplitl [H3]; · iexact H3
        isplitl [H4]; · iexact H4
        iexact H5
      iexact HS
    iexact Hg
  · show (_ : sProp 𝕄) ⊢ (_ : sProp 𝕄)
    iintro ⟨⟨⟨H0, H1, H2, H3, H4, H5⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact HS
    iexact Hg

/-! ## The region's proof data -/

/-- The proof data of the second region on core `c`. The two windows on the score array hold its two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is handed at point `t`: the invariant, what the core owes, and each window's current staging buffer
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the invariant at the next point and each buffer at what the body leaves there (the output's as
    found wherever k ≠ 7). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The three inputs' buffers hold their blocks. The last coordinate k = t mod 8 selects the
    case. At k = 0 the accumulator is found at anything (at the very first point inside the region's entry invariant,
    later at what the previous run of eight left) and restarts; at 0 < k the accumulator is found at what the point
    before left and the block product is added to it. Away from k = 7 the output buffer goes through untouched; at
    k = 7 it ends at the diagonal block divided by the accumulator. The first region's buffers, the generator register
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
      unfold Dat.leavesExact; rw [liveAt1_0 t, after1_0],
    show (dat1 V c).leavesExact 1 t = owns (c : Thread nD τ) (st1_1 t) fullShare (iblk1 V c 1 t) from by
      unfold Dat.leavesExact; rw [liveAt1_1 t, after1_1],
    show (dat1 V c).leavesExact 2 t = owns (c : Thread nD τ) (st1_2 t) fullShare (iblk1 V c 2 t) from by
      unfold Dat.leavesExact; rw [liveAt1_2 t, after1_2]]
  have hN : t.val < 128 := lt_of_lt_of_eq t.isLt (show cfg1.N = 128 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3 t hc1) (noFlush1_3 t hc1)]
      rw [accAt1_reset V c t h0]
      by_cases hz : t.val = 0
      · rw [PhiS1_castSucc V c t, PhiS1_zero V c _ _ hz, PhiA1_eq]
        iintro ⟨⟨⟨Hr, HS⟩, Hg⟩, Ho, ⟨%d0, H0⟩, ⟨%d1, H1⟩, ⟨%d2, H2⟩, ⟨%d3, H3⟩⟩
        iapply (sound_kernel1_A c Set.univ (grid1.coords t) hc0 hc1 _ _ _ _ _ _ _ _ _ _ (iblk1 V c 0 t) (iblk1 V c 1 t) (iblk1 V c 2 t) ((dat1 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [Hr HS Hg]
        · isplitl [Hr]; · iexact Hr
          isplitl [HS]; · iexact HS
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hr, HS, Hg⟩, Ho, ⟨%d0, H0⟩, ⟨%d1, H1⟩, ⟨%d2, H2⟩, ⟨%d3, H3⟩⟩
        iapply (sound_kernel1_A c Set.univ (grid1.coords t) hc0 hc1 _ _ _ _ _ _ _ _ _ _ (iblk1 V c 0 t) (iblk1 V c 1 t) (iblk1 V c 2 t) ((dat1 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [Hr HS Hg]
        · isplitl [Hr]; · iexact Hr
          isplitl [HS]; · iexact HS
          iexact Hg
        isplitl [Ho]; · iexact Ho
        isplitl [H0]; · iexact H0
        isplitl [H1]; · iexact H1
        isplitl [H2]; · iexact H2
        iexists _; iexact H3
  · have hz : t.val ≠ 0 := fun e => h0 (by rw [e])
    have hc0 : ¬cond1_0 (grid1.coords t) := fun h => h0 ((hcond1_0 t).mp h)
    rw [PhiS1_castSucc V c t, PhiS1_pos V c _ _ hz]
    rw [accAt1_step V c t h0]
    by_cases h1 : t.val % 8 = 7
    · have hc1 : cond1_1 (grid1.coords t) := (hcond1_1 t).mpr h1
      rw [show (dat1 V c).leavesExact 3 t = owns (c : Thread nD τ) (st1_3 t) fullShare (outAt1 V c t) from by
        unfold Dat.leavesExact; rw [liveAt1_3 t hc1, after1_3]]
      unfold outAt1
      rw [accAt1_step V c t h0]
      iintro ⟨⟨Hr, HS, Hg⟩, Ho, ⟨%d0, H0⟩, ⟨%d1, H1⟩, ⟨%d2, H2⟩, ⟨%d3, H3⟩⟩
      iapply (sound_kernel1_C c Set.univ (grid1.coords t) hc0 hc1 _ _ _ _ _ _ _ _ _ _ (iblk1 V c 0 t) (iblk1 V c 1 t) (iblk1 V c 2 t) (accAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (sound_kernel1_B c Set.univ (grid1.coords t) hc0 hc1 _ _ _ _ _ _ _ _ _ _ (iblk1 V c 0 t) (iblk1 V c 1 t) (iblk1 V c 2 t) ((dat1 V c).before 3 t d3) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists _; iexact H3

set_option maxHeartbeats 4000000 in
/-- The body at every point, in the case the point's last coordinate selects. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers and the generator register back. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨Hr, HS, Hg⟩
  isplitr [Hg]
  · isplitl [Hr]; · iexact Hr
    iexists _; iexact HS
  iexact Hg

end Cert.Kernel.Hand

end
-- ==== Proof.Kernel.Bounds.lean ====
/- The contents of the core's buffers at each boundary of the two-region program, as a fold from the launch memory:
   after the host operations, after the score region (its arrays at what its write-backs leave), after the normalising
   region (the result array at what its write-backs leave, everything else as entered). -/
import proofs.«154450_j74586402063284_1_alg».proof.Proof.Kernel.Region0
import proofs.«154450_j74586402063284_1_alg».proof.Proof.Kernel.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what the pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the result array at what its write-backs leave, every other buffer as entered (its
    three input windows write nothing back). -/
def W3 (c : Dev nD) : Valuation τ sig (Elt F) :=
  Function.update (W2 m ρ c) (Proc.devRef .tc main_v9) ((dat1 (V2 m ρ) c).arrAt 3 cfg1.N)
abbrev V3 : (c : Dev nD) → (b : Ref sig .tc) → Buf (Elt F) ((c : Thread nD τ).loc b) := fun c b => W3 m ρ c b
theorem W3_main_v9 (c : Dev nD) : W3 m ρ c (Proc.devRef .tc main_v9) = (dat1 (V2 m ρ) c).arrAt 3 cfg1.N := by
  unfold W3; exact Function.update_self ..
theorem W3_of_ne (c : Dev nD) (b : Ref sig .tc) (hb : b ≠ main_v9) :
    W3 m ρ c (Proc.devRef .tc b) = W2 m ρ c (Proc.devRef .tc b) := by
  unfold W3; exact Function.update_of_ne (StableHlo.devRef_ne_of_ne hb) ..

end Cert.Kernel.Hand

end
-- ==== Proof.Kernel.Launch.lean ====
/- The whole run of the two-region program: host operations (the two scaled feature arrays), the score region, the
   normalising region. Every unscoped buffer is tracked through the three segments, so the run's post names the final
   contents of each of them — the arguments as launched, the result array at what the second region's write-backs leave.
   The second region reads the score array through two windows: at its entry the array's full share is split into two
   halves, one per window, and joined again at its exit (both windows are inputs, so the array ends as it was found). -/
import proofs.«154450_j74586402063284_1_alg».proof.Proof.Kernel.Bounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The first region as a segment -/

set_option backward.isDefEq.respectTransparency.types false in
/-- Entered from every unscoped buffer at `W1`, left at `W2`: its three arrays are split out of the unscoped buffers
    and put back at the exit contents; the generator register goes into the invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: one of them behind two windows -/

/-- The three distinct buffers behind the second region's four windows, each whole at the full share. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v8) ↦{fullShare} Vv main_v8) ∗ (((c : Thread nD τ).loc main_arg1) ↦{fullShare} Vv main_arg1) ∗ (((c : Thread nD τ).loc main_v9) ↦{fullShare} Vv main_v9)) := by
  unfold Pipeline.arrBufs
  exact bigSep_eq_bigSepL_of_eq [main_v8, main_arg1, main_v9] (by decide) (by decide) _

/-- The second region's windowed arrays as its proof data holds them: the score array twice, at the two halves of
    its share, the adjacency array and the result array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v9) ↦{fullShare} G 3)) := by
  unfold Dat.arrays
  rw [bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  simp only [h0, h1, h2, h3]
  rfl

/-- ENTRY: the unscoped buffers at a valuation give the second region's arrays at it — the score array's share split
    between its two windows — and the unscoped rest. -/
theorem arrays1_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have h := Pipeline.unscopedBufs_split₀ (Ix := Unit) (Name := ℕ) (U := UR sig nD τ) (Lvl := ℕ) cfgs 1 winFacts₀1.arr_unscoped c (V c)
  change unscopedBufs c (V c) = iprop(Pipeline.arrBufs spec1 c (V c) ∗ Pipeline.unscopedRest spec1 c (V c)) at h
  rw [h, arrBufs1_eq, arrays1_eq]
  have hs : ((((c : Thread nD τ).loc main_v8) ↦{fullShare} V c main_v8 : sProp 𝕄))
      ⊢ iprop((((c : Thread nD τ).loc main_v8) ↦{fullShare.left} V c main_v8) ∗ (((c : Thread nD τ).loc main_v8) ↦{fullShare.right} V c main_v8)) :=
    (pointsTo_share (PosShare.mem_left_op_right fullShare)).1
  iintro ⟨⟨H8, H1, H9⟩, Hr⟩
  ihave H8' := hs $$ H8
  icases H8' with ⟨H8l, H8r⟩
  isplitr [Hr]
  · isplitl [H8l]; · iexact H8l
    isplitl [H8r]; · iexact H8r
    isplitl [H1]; · iexact H1
    iexact H9
  iexact Hr

/-- EXIT: the second region's arrays at contents `G` — the two halves of the score array joined — and the unscoped
    rest are the unscoped buffers at any valuation that has the arrays at `G` and agrees off them. -/
theorem unscopedBufs_of_arrays1 (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  have h := Pipeline.unscopedBufs_split₀ (Ix := Unit) (Name := ℕ) (U := UR sig nD τ) (Lvl := ℕ) cfgs 1 winFacts₀1.arr_unscoped c V'
  change unscopedBufs c V' = iprop(Pipeline.arrBufs spec1 c V' ∗ Pipeline.unscopedRest spec1 c V') at h
  have hr : (Pipeline.unscopedRest (Ix := Unit) (Name := ℕ) (U := UR sig nD τ) (Lvl := ℕ) spec1 c (V c) : sProp 𝕄) = Pipeline.unscopedRest spec1 c V' := by
    unfold Pipeline.unscopedRest
    exact bigSep_congr fun b hb => by rw [hrest b (Finset.mem_sdiff.mp hb).2]
  rw [h, arrBufs1_eq, arrays1_eq, hr, hG 0, hG 1, hG 2, hG 3]
  have hj : iprop((((c : Thread nD τ).loc main_v8) ↦{fullShare.left} V' main_v8) ∗ (((c : Thread nD τ).loc main_v8) ↦{fullShare.right} V' main_v8))
      ⊢ ((((c : Thread nD τ).loc main_v8) ↦{fullShare} V' main_v8 : sProp 𝕄)) :=
    (pointsTo_share (PosShare.mem_left_op_right fullShare)).2
  show iprop(((((c : Thread nD τ).loc main_v8) ↦{fullShare.left} V' main_v8) ∗ (((c : Thread nD τ).loc main_v8) ↦{fullShare.right} V' main_v8)
      ∗ (((c : Thread nD τ).loc main_arg1) ↦{fullShare} V' main_arg1) ∗ (((c : Thread nD τ).loc main_v9) ↦{fullShare} V' main_v9)) ∗ Pipeline.unscopedRest spec1 c V')
    ⊢ iprop(((((c : Thread nD τ).loc main_v8) ↦{fullShare} V' main_v8) ∗ (((c : Thread nD τ).loc main_arg1) ↦{fullShare} V' main_arg1) ∗ (((c : Thread nD τ).loc main_v9) ↦{fullShare} V' main_v9)) ∗ Pipeline.unscopedRest spec1 c V')
  iintro ⟨⟨H8l, H8r, H1, H9⟩, Hr⟩
  isplitr [Hr]
  · isplitl [H8l H8r]
    · iapply hj; isplitl [H8l] <;> iassumption
    isplitl [H1]; · iexact H1
    iexact H9
  iexact Hr

/-- What the second region's arrays hold at its exit, in terms of the exit valuation. -/
theorem hF1 (c : Dev nD) (w : Fin cfg1.W) : (dat1 (V2 m ρ) c).arrAt w cfg1.N = V3 m ρ c (Pipeline.arrRef spec1 w) :=
  match w with
  | ⟨0, _⟩ => ((dat1 (V2 m ρ) c).arrAt_in 0 rfl _).trans ((A_eq1 (V2 m ρ) c 0).trans (W3_of_ne m ρ c main_v8 (by decide)).symm)
  | ⟨1, _⟩ => ((dat1 (V2 m ρ) c).arrAt_in 1 rfl _).trans ((A_eq1 (V2 m ρ) c 1).trans (W3_of_ne m ρ c main_v8 (by decide)).symm)
  | ⟨2, _⟩ => ((dat1 (V2 m ρ) c).arrAt_in 2 rfl _).trans ((A_eq1 (V2 m ρ) c 2).trans (W3_of_ne m ρ c main_arg1 (by decide)).symm)
  | ⟨3, _⟩ => (W3_main_v9 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-! ## The second region as a segment -/

set_option backward.isDefEq.respectTransparency.types false in
/-- Entered from every unscoped buffer at `W2`, left at `W3`. At entry the score array's share is split between the
    two windows that read it, at exit it is joined again; the invariant takes the scoped buffers no window stages (the
    accumulator's among them) and the generator register, and gives them back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [show unscopedBufs c (V2 m ρ c) = StableHlo.held (c : Thread nD τ) (Pipeline.ucRefs τ sig) (W2 m ρ c)
      from Pipeline.unscopedBufs_held c (W2 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := unscopedBufs_of_arrays1 (V2 m ρ) c (V3 m ρ c) ((dat1 (V2 m ρ) c).arrAt · cfg1.N) (hF1 m ρ c) (hrest1 m ρ c)
    rw [show unscopedBufs c (V3 m ρ c) = StableHlo.held (c : Thread nD τ) (Pipeline.ucRefs τ sig) (W3 m ρ c)
      from Pipeline.unscopedBufs_held c (W3 m ρ c)] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order: the host stretch, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of those segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.Kernel.Hand

end
-- ==== Proof.Kernel.Args.lean ====
/- The program's four arguments at the end of the run. Each boundary valuation is the one before it changed only at
   the arrays a segment writes: the host operations write the eight intermediate arrays, the score region its result
   array, the normalising region the final result array. None of these is an argument, so walking the fold back from
   the last boundary to the launch memory leaves every argument at its launch contents. -/
import proofs.«154450_j74586402063284_1_alg».proof.Proof.Kernel.Bounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- No host operation and no region writes an argument: at the end it holds its launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg0) := rfl

/-- The same of argument 1: the second region reads it through an input window, which writes nothing back. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg1) := rfl

/-- The same of argument 2, which only the host operations read. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg2) := rfl

/-- The same of argument 3, which only the host operations read. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg3) := rfl

end Cert.Kernel.Hand

end
-- ==== Proof.KernelIdeal.Region0.lean ====
/- The first kernel region (the score kernel), at any contents `V` of the core's buffers when the region is entered.
   At grid point (i, j) the body reads column block i of the scaled query features and column block j of the scaled key
   features (each 128 × 1024) and stores the 1024 × 1024 block of exponentials of their inner products; it also loads
   its output buffer once, a value nothing uses. Stated here: what each window's staging buffer holds at a point, the
   body's triple, the region's proof data and its body obligation. -/
import proofs.«154450_j74586402063284_1_alg».proof.Proof.Gen.KernelIdeal.Launch
import proofs.«154450_j74586402063284_1_alg».proof.Proof.Gen.KernelIdeal.Skeleton
import proofs.«154450_j74586402063284_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: a point that does
    not fetch has the block index of the point before, and the body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is a whole staging buffer -/

abbrev rIn0 : Rect S128x1024 := Rect.unit (s := S128x1024) ![0, 0] S128x1024.size inb_S128x1024_S128x1024_0_0
abbrev rOut0 : Rect S1024x1024 := Rect.unit (s := S1024x1024) ![0, 0] S1024x1024.size inb_S1024x1024_S1024x1024_0_0

/-- The output buffer after the body: its one store, of the exponentiated products of the two input blocks. -/
def out0_2 (x0 x1 : Vec F S128x1024 .bf16) : Vec F S1024x1024 .bf16 :=
  View.canon [⟨rOut0, k0_pay1 (View.ld x0 rIn0) (View.ld x1 rIn0)⟩]

/-- That store covers the buffer. -/
theorem cover0_2 (p0 : Vec F S1024x1024 .bf16) (y : S1024x1024.Idx) :
    ∃ pc ∈ ([⟨rOut0, p0⟩] : List (View.Piece (Elt F) S1024x1024 .bf16)), y ∈ pc.1.set :=
  View.cover_of_tiled [⟨rOut0, p0⟩] S1024x1024.size (by rfl) y

/-! ## The body's triple -/

set_option maxHeartbeats 1000000 in
/-- On whole staging buffers, the inputs' at contents `x0`, `x1` and the output's at anything, the body runs to the
    continuation holding the inputs as they were and the output at `out0_2 x0 x1`. -/
theorem sound_kernel0 (c : Dev nD) (E : Set ℕ) (i : grid0.Coords) (arg2 : Memref sig .tc .vmem S128x1024 .bf16) (harg2 : arg2.IsWhole)
    (arg3 : Memref sig .tc .vmem S128x1024 .bf16) (harg3 : arg3.IsWhole) (arg4 : Memref sig .tc .vmem S1024x1024 .bf16) (harg4 : arg4.IsWhole)
    (x0 x1 : Vec F S128x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__score_kernel i arg2 harg2 arg3 harg3 arg4 harg4) K := by
  simp only [cc0__score_kernel_eq_skeleton]; unfold cc0__score_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the first region on core `c`: the arrays as the region finds them; after the body at point `t`
    each input's buffer at its block and the output's at `out0_2` of the two input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Runs.lean ====
/- The second kernel region's body (the edge-normalising kernel) on any staging buffers, case by case.
   The grid is 4 × 4 × 8; the last coordinate k walks the 4096 contracted nodes in blocks of 512. At k = 0 the body
   zeroes its accumulator; at every k it adds the product of the score block (512 × 1024, rows = contracted nodes) with
   the adjacency block (1024 × 512, columns = contracted nodes); at k = 7 it divides the diagonal score block by the
   accumulator into the output block. Three control cases: A (k = 0), B (0 < k < 7), C (k = 7). -/
import proofs.«154450_j74586402063284_1_alg».proof.Proof.Gen.KernelIdeal.Launch
import proofs.«154450_j74586402063284_1_alg».proof.Proof.Gen.KernelIdeal.Skeleton
import proofs.«154450_j74586402063284_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, and where they hold on the grid -/

/-- The body's first branch (reset the accumulator): taken where the last grid coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The body's second branch (divide and store the output): taken where the last grid coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 7 the output window is idle (nothing is stored into it) and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 7 it is live. -/
theorem liveAt1_3 : ∀ t : Fin cfg1.N, cond1_1 (grid1.coords t) → cfg1.idle 3 (grid1.coords t) = false := by decide +kernel

/-! ## The body's triple in each case -/

/-- Every access of the body starts at the origin of its buffer: the offsets are the zero function. -/
private theorem hz00 : (![0, 0] : Fin 2 → Nat) = fun _ => 0 := funext fun a => by fin_cases a <;> rfl

set_option maxHeartbeats 2000000 in
/-- Case A (k = 0): the accumulator, found at anything, ends at the first block product added to zero; the output buffer
    is handed back as found. -/
theorem sound_kernel1_A (c : Dev nD) (E : Set ℕ) (i : grid1.Coords) (hc0 : cond1_0 i) (hc1 : ¬cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xo : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x2 (k1_pay1 (F := F)))) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  sl_unfold_words
  rw [View.read_writes_eq_canon _ _ _ (fun y => ⟨_, List.Mem.head _, View.mem_set_unit_zero hz00 inb_S1024x1024_S1024x1024_0_0 y⟩), View.canon_cons_unit_zero hz00]
  simp only [View.readAt_eq_ld, View.ld_unit_zero (S := S512x1024) hz00, View.ld_unit_zero (S := S1024x512) hz00,
    View.ld_unit_zero (S := S1024x1024) hz00, View.readCov_unit_zero (S := S1024x1024) _ hz00]

set_option maxHeartbeats 2000000 in
/-- Case B (0 < k < 7): the accumulator, found at `xs`, ends at `xs` plus this point's block product; the output buffer
    is handed back as found. -/
theorem sound_kernel1_B (c : Dev nD) (E : Set ℕ) (i : grid1.Coords) (hc0 : ¬cond1_0 i) (hc1 : ¬cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xo xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xo ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xo ∗ owns (c : Thread nD τ) arg7 fullShare (k1_pay2 x0 x2 xs)) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  rw [View.read_writes_eq_canon _ _ _ (fun y => ⟨_, List.mem_singleton_self _, View.mem_set_unit_zero hz00 inb_S1024x1024_S1024x1024_0_0 y⟩), View.canon_unit_zero hz00]
  simp only [View.readAt_eq_ld, View.ld_unit_zero (S := S512x1024) hz00, View.ld_unit_zero (S := S1024x512) hz00,
    View.ld_unit_zero (S := S1024x1024) hz00]

set_option maxHeartbeats 2000000 in
/-- Case C (k = 7): the accumulator ends at `xs` plus this point's block product, and the output buffer, found at
    anything, ends at the diagonal score block divided by that accumulator. -/
theorem sound_kernel1_C (c : Dev nD) (E : Set ℕ) (i : grid1.Coords) (hc0 : ¬cond1_0 i) (hc1 : cond1_1 i)
    (arg3 : Memref sig .tc .vmem S512x1024 .bf16) (harg3 : arg3.IsWhole) (arg4 : Memref sig .tc .vmem S1024x1024 .bf16) (harg4 : arg4.IsWhole)
    (arg5 : Memref sig .tc .vmem S1024x512 .f32) (harg5 : arg5.IsWhole) (arg6 : Memref sig .tc .vmem S1024x1024 .f32) (harg6 : arg6.IsWhole)
    (arg7 : Memref sig .tc .vmem S1024x1024 .f32) (harg7 : arg7.IsWhole)
    (x0 : Vec F S512x1024 .bf16) (x1 : Vec F S1024x1024 .bf16) (x2 : Vec F S1024x512 .f32) (xs : Vec F S1024x1024 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 x1 (k1_pay2 x0 x2 xs)) ∗ owns (c : Thread nD τ) arg7 fullShare (k1_pay2 x0 x2 xs)) -∗ K ⟨⟩))
      ⊢ wp frame (wpE (defs₀ (F := F)) Variants.none c none) E (cc1__edge_norm_kernel i arg3 harg3 arg4 harg4 arg5 harg5 arg6 harg6 arg7 harg7) K := by
  simp only [cc1__edge_norm_kernel_eq_skeleton]; unfold cc1__edge_norm_kernel_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0; subst hf1; subst hf2; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (fun y => ⟨_, List.mem_singleton_self _, View.mem_set_unit_zero hz00 inb_S1024x1024_S1024x1024_0_0 y⟩), View.canon_unit_zero hz00]
    simp only [View.readAt_eq_ld, View.ld_unit_zero (S := S512x1024) hz00, View.ld_unit_zero (S := S1024x512) hz00,
    View.ld_unit_zero (S := S1024x1024) hz00, View.readCov_unit_zero (S := S1024x1024) _ hz00]
  iexists _; isplitr
  swap; · iexact H4
  ipureintro
  sl_unfold_words
  rw [View.read_writes_eq_canon _ _ _ (fun y => ⟨_, List.mem_singleton_self _, View.mem_set_unit_zero hz00 inb_S1024x1024_S1024x1024_0_0 y⟩), View.canon_unit_zero hz00]
  simp only [View.readAt_eq_ld, View.ld_unit_zero (S := S512x1024) hz00, View.ld_unit_zero (S := S1024x512) hz00,
    View.ld_unit_zero (S := S1024x1024) hz00]

end Cert.KernelIdeal.Hand

end
-- ==== Proof.KernelIdeal.Region1.lean ====
/- The second kernel region (the edge-normalising kernel), at any contents `V` of the core's buffers when the region is
   entered: what each window's staging buffer holds at a point, the accumulator the kernel carries from point to point,
   the region's proof data and its body obligation. The score array is read through two windows at once (a 512 × 1024
   block of rows k, columns i, and the 1024 × 1024 diagonal block (i, j)), each holding half of the array's share. -/
import proofs.«154450_j74586402063284_1_alg».proof.Proof.KernelIdeal.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator, point by point -/

/-- The accumulator after the body at position `n`: at the first point of a run of eight (k = 0) the point's block
    product added to zero, afterwards added to what the point before left. -/
def accAt1 (c : Dev nD) : (n : ℕ) → n < cfg1.N → Vec F S1024x1024 .f32
  | 0, hn => k1_pay2 (iblk1 V c 0 ⟨0, hn⟩) (iblk1 V c 2 ⟨0, hn⟩) (k1_pay1 (F := F))
  | n + 1, hn =>
    if (n + 1) % 8 = 0 then k1_pay2 (iblk1 V c 0 ⟨n + 1, hn⟩) (iblk1 V c 2 ⟨n + 1, hn⟩) (k1_pay1 (F := F))
    else k1_pay2 (iblk1 V c 0 ⟨n + 1, hn⟩) (iblk1 V c 2 ⟨n + 1, hn⟩) (accAt1 c n (Nat.lt_of_succ_lt hn))

/-- At a point with k = 0 the accumulator restarts. -/
theorem accAt1_reset (c : Dev nD) (t : Fin cfg1.N) (h0 : t.val % 8 = 0) :
    accAt1 V c t.val t.isLt = k1_pay2 (iblk1 V c 0 t) (iblk1 V c 2 t) (k1_pay1 (F := F)) := by
  obtain ⟨n, hn⟩ := t
  cases n with
  | zero => rfl
  | succ n => exact if_pos h0

/-- At a point with k ≠ 0 it adds to what the point before left. -/
theorem accAt1_step (c : Dev nD) (t : Fin cfg1.N) (h0 : ¬t.val % 8 = 0) :
    accAt1 V c t.val t.isLt = k1_pay2 (iblk1 V c 0 t) (iblk1 V c 2 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the output buffer holds after the body at a point with k = 7: the diagonal score block divided by the
    accumulator. (At the other points the window is idle and this is not consulted.) -/
def outAt1 (c : Dev nD) (t : Fin cfg1.N) : Vec F S1024x1024 .f32 :=
  k1_pay3 (iblk1 V c 1 t) (accAt1 V c t.val t.isLt)

/-! ## The invariant between points -/

/-- The accumulator's buffer, as the kernel is handed it. -/
abbrev scM1 : Memref sig .tc .vmem S1024x1024 .f32 := Memref.whole cc1_scratch0

/-- The first region's six staging buffers, each whole at some contents: scoped buffers this region never touches. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- Before the first point: the scoped buffers no window stages (the accumulator's among them, at anything) and the
    generator register. After point `n`: the same with the accumulator's buffer at what point `n` left in it. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c ∗ owns (c : Thread nD τ) scM1 fullShare (accAt1 V c n hn) ∗ (∃ r, prngReg c r)) := rfl
theorem PhiS1_pos (c : Dev nD) (n : ℕ) (h : n ≤ cfg1.N) (hz : n ≠ 0) :
    PhiS1 V c n h = iprop(rest1 (F := F) c ∗ owns (c : Thread nD τ) scM1 fullShare (accAt1 V c (n - 1) (by omega)) ∗ (∃ r, prngReg c r)) := by
  cases n with
  | zero => exact absurd rfl hz
  | succ n => rfl

/-- The scoped buffers no window of this region stages, spelt out: the six and the accumulator's. -/
theorem PhiA1_eq (c : Dev nD) :
    (Pipeline.ΦA spec1 c : sProp 𝕄) = iprop((rest1 (F := F) c ∗ (∃ d, owns (c : Thread nD τ) scM1 fullShare d)) ∗ (∃ r, prngReg c r)) := by
  unfold Pipeline.ΦA; rw [scopedRest1_eq]; unfold rest1; simp only [scM1, owns_whole]
  refine BI.equiv_iff.mp ⟨?_, ?_⟩
  · show (_ : sProp 𝕄) ⊢ (_ : sProp 𝕄)
    iintro ⟨⟨H0, H1, H2, H3, H4, H5, HS⟩, Hg⟩
    isplitr [Hg]
    · isplitr [HS]
      · isplitl [H0]; · iexact H0
        isplitl [H1]; · iexact H1
        isplitl [H2]; · iexact H2
        isplitl [H3]; · iexact H3
        isplitl [H4]; · iexact H4
        iexact H5
      iexact HS
    iexact Hg
  · show (_ : sProp 𝕄) ⊢ (_ : sProp 𝕄)
    iintro ⟨⟨⟨H0, H1, H2, H3, H4, H5⟩, HS⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact HS
    iexact Hg

/-! ## The region's proof data -/

/-- The proof data of the second region on core `c`. The two windows on the score array hold its two half shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation -/

/-- What the body is handed at point `t`: the invariant, what the core owes, and each window's current staging buffer
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back: the invariant at the next point and each buffer at what the body leaves there (the output's as
    found wherever k ≠ 7). -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The three inputs' buffers hold their blocks. The last coordinate k = t mod 8 selects the
    case. At k = 0 the accumulator is found at anything (at the very first point inside the region's entry invariant,
    later at what the previous run of eight left) and restarts; at 0 < k the accumulator is found at what the point
    before left and the block product is added to it. Away from k = 7 the output buffer goes through untouched; at
    k = 7 it ends at the diagonal block divided by the accumulator. The first region's buffers, the generator register
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare (iblk1 V c 0 t) from by
      unfold Dat.leavesExact; rw [liveAt1_0 t, after1_0],
    show (dat1 V c).leavesExact 1 t = owns (c : Thread nD τ) (st1_1 t) fullShare (iblk1 V c 1 t) from by
      unfold Dat.leavesExact; rw [liveAt1_1 t, after1_1],
    show (dat1 V c).leavesExact 2 t = owns (c : Thread nD τ) (st1_2 t) fullShare (iblk1 V c 2 t) from by
      unfold Dat.leavesExact; rw [liveAt1_2 t, after1_2]]
  have hN : t.val < 128 := lt_of_lt_of_eq t.isLt (show cfg1.N = 128 from N_1)
  by_cases h0 : t.val % 8 = 0
  · by_cases h1 : t.val % 8 = 7
    · exfalso; omega
    · have hc0 : cond1_0 (grid1.coords t) := (hcond1_0 t).mpr h0
      have hc1 : ¬cond1_1 (grid1.coords t) := fun h => h1 ((hcond1_1 t).mp h)
      rw [Dat.leavesExact_idle (dat1 V c) 3 t (idleAt1_3 t hc1) (noFlush1_3 t hc1)]
      rw [accAt1_reset V c t h0]
      by_cases hz : t.val = 0
      · rw [PhiS1_castSucc V c t, PhiS1_zero V c _ _ hz, PhiA1_eq]
        iintro ⟨⟨⟨Hr, HS⟩, Hg⟩, Ho, ⟨%d0, H0⟩, ⟨%d1, H1⟩, ⟨%d2, H2⟩, ⟨%d3, H3⟩⟩
        iapply (sound_kernel1_A c Set.univ (grid1.coords t) hc0 hc1 _ _ _ _ _ _ _ _ _ _ (iblk1 V c 0 t) (iblk1 V c 1 t) (iblk1 V c 2 t) ((dat1 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [Hr HS Hg]
        · isplitl [Hr]; · iexact Hr
          isplitl [HS]; · iexact HS
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨Hr, HS, Hg⟩, Ho, ⟨%d0, H0⟩, ⟨%d1, H1⟩, ⟨%d2, H2⟩, ⟨%d3, H3⟩⟩
        iapply (sound_kernel1_A c Set.univ (grid1.coords t) hc0 hc1 _ _ _ _ _ _ _ _ _ _ (iblk1 V c 0 t) (iblk1 V c 1 t) (iblk1 V c 2 t) ((dat1 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [Hr HS Hg]
        · isplitl [Hr]; · iexact Hr
          isplitl [HS]; · iexact HS
          iexact Hg
        isplitl [Ho]; · iexact Ho
        isplitl [H0]; · iexact H0
        isplitl [H1]; · iexact H1
        isplitl [H2]; · iexact H2
        iexists _; iexact H3
  · have hz : t.val ≠ 0 := fun e => h0 (by rw [e])
    have hc0 : ¬cond1_0 (grid1.coords t) := fun h => h0 ((hcond1_0 t).mp h)
    rw [PhiS1_castSucc V c t, PhiS1_pos V c _ _ hz]
    rw [accAt1_step V c t h0]
    by_cases h1 : t.val % 8 = 7
    · have hc1 : cond1_1 (grid1.coords t) := (hcond1_1 t).mpr h1
      rw [show (dat1 V c).leavesExact 3 t = owns (c : Thread nD τ) (st1_3 t) fullShare (outAt1 V c t) from by
        unfold Dat.leavesExact; rw [liveAt1_3 t hc1, after1_3]]
      unfold outAt1
      rw [accAt1_step V c t h0]
      iintro ⟨⟨Hr, HS, Hg⟩, Ho, ⟨%d0, H0⟩, ⟨%d1, H1⟩, ⟨%d2, H2⟩, ⟨%d3, H3⟩⟩
      iapply (sound_kernel1_C c Set.univ (grid1.coords t) hc0 hc1 _ _ _ _ _ _ _ _ _ _ (iblk1 V c 0 t) (iblk1 V c 1 t) (iblk1 V c 2 t) (accAt1 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨Hr, HS, Hg⟩, Ho, ⟨%d0, H0⟩, ⟨%d1, H1⟩, ⟨%d2, H2⟩, ⟨%d3, H3⟩⟩
      iapply (sound_kernel1_B c Set.univ (grid1.coords t) hc0 hc1 _ _ _ _ _ _ _ _ _ _ (iblk1 V c 0 t) (iblk1 V c 1 t) (iblk1 V c 2 t) ((dat1 V c).before 3 t d3) (accAt1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [Hr HS Hg]
      · isplitl [Hr]; · iexact Hr
        isplitl [HS]; · iexact HS
        iexact Hg
      isplitl [Ho]; · iexact Ho
      isplitl [H0]; · iexact H0
      isplitl [H1]; · iexact H1
      isplitl [H2]; · iexact H2
      iexists _; iexact H3

set_option maxHeartbeats 4000000 in
/-- The body at every point, in the case the point's last coordinate selects. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped buffers and the generator register back. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨Hr, HS, Hg⟩
  isplitr [Hg]
  · isplitl [Hr]; · iexact Hr
    iexists _; iexact HS
  iexact Hg

end Cert.KernelIdeal.Hand

end
-- ==== Proof.KernelIdeal.Bounds.lean ====
/- The contents of the core's buffers at each boundary of the two-region program, as a fold from the launch memory:
   after the host operations, after the score region (its arrays at what its write-backs leave), after the normalising
   region (the result array at what its write-backs leave, everything else as entered). -/
import proofs.«154450_j74586402063284_1_alg».proof.Proof.KernelIdeal.Region0
import proofs.«154450_j74586402063284_1_alg».proof.Proof.KernelIdeal.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the host operations (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second region's entry): its arrays at what the pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: the result array at what its write-backs leave, every other buffer as entered (its
    three input windows write nothing back). -/
def W3 (c : Dev nD) : Valuation τ sig (Elt F) :=
  Function.update (W2 m ρ c) (Proc.devRef .tc main_v9) ((dat1 (V2 m ρ) c).arrAt 3 cfg1.N)
abbrev V3 : (c : Dev nD) → (b : Ref sig .tc) → Buf (Elt F) ((c : Thread nD τ).loc b) := fun c b => W3 m ρ c b
theorem W3_main_v9 (c : Dev nD) : W3 m ρ c (Proc.devRef .tc main_v9) = (dat1 (V2 m ρ) c).arrAt 3 cfg1.N := by
  unfold W3; exact Function.update_self ..
theorem W3_of_ne (c : Dev nD) (b : Ref sig .tc) (hb : b ≠ main_v9) :
    W3 m ρ c (Proc.devRef .tc b) = W2 m ρ c (Proc.devRef .tc b) := by
  unfold W3; exact Function.update_of_ne (StableHlo.devRef_ne_of_ne hb) ..

end Cert.KernelIdeal.Hand

end
-- ==== Proof.KernelIdeal.Launch.lean ====
/- The whole run of the two-region program: host operations (the two scaled feature arrays), the score region, the
   normalising region. Every unscoped buffer is tracked through the three segments, so the run's post names the final
   contents of each of them — the arguments as launched, the result array at what the second region's write-backs leave.
   The second region reads the score array through two windows: at its entry the array's full share is split into two
   halves, one per window, and joined again at its exit (both windows are inputs, so the array ends as it was found). -/
import proofs.«154450_j74586402063284_1_alg».proof.Proof.KernelIdeal.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev Tₙ (c : Dev nD) : sProp 𝕄 := iprop(StableHlo.held (c : Thread nD τ) (Pipeline.ucRefs τ sig) (W3 m ρ c) ∗ ∃ r, prngReg c r)

/-! ## The first region as a segment -/

set_option backward.isDefEq.respectTransparency.types false in
/-- Entered from every unscoped buffer at `W1`, left at `W2`: its three arrays are split out of the unscoped buffers
    and put back at the exit contents; the generator register goes into the invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region's arrays: one of them behind two windows -/

/-- The three distinct buffers behind the second region's four windows, each whole at the full share. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v8) ↦{fullShare} Vv main_v8) ∗ (((c : Thread nD τ).loc main_arg1) ↦{fullShare} Vv main_arg1) ∗ (((c : Thread nD τ).loc main_v9) ↦{fullShare} Vv main_v9)) := by
  unfold Pipeline.arrBufs
  exact bigSep_eq_bigSepL_of_eq [main_v8, main_arg1, main_v9] (by decide) (by decide) _

/-- The second region's windowed arrays as its proof data holds them: the score array twice, at the two halves of
    its share, the adjacency array and the result array whole. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v8) ↦{fullShare.left} G 0) ∗ (((c : Thread nD τ).loc main_v8) ↦{fullShare.right} G 1)
          ∗ (((c : Thread nD τ).loc main_arg1) ↦{fullShare} G 2) ∗ (((c : Thread nD τ).loc main_v9) ↦{fullShare} G 3)) := by
  unfold Dat.arrays
  rw [bigSep_W1]
  have h0 : (cfg1.win 0).arr.view.set = Finset.univ := (arr_whole1 0).set_eq_univ
  have h1 : (cfg1.win 1).arr.view.set = Finset.univ := (arr_whole1 1).set_eq_univ
  have h2 : (cfg1.win 2).arr.view.set = Finset.univ := (arr_whole1 2).set_eq_univ
  have h3 : (cfg1.win 3).arr.view.set = Finset.univ := (arr_whole1 3).set_eq_univ
  simp only [h0, h1, h2, h3]
  rfl

/-- ENTRY: the unscoped buffers at a valuation give the second region's arrays at it — the score array's share split
    between its two windows — and the unscoped rest. -/
theorem arrays1_of_unscopedBufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((dat1 V c).arrays ((dat1 V c).arrAt · 0) ∗ Pipeline.unscopedRest spec1 c (V c)) := by
  have h := Pipeline.unscopedBufs_split₀ (Ix := Unit) (Name := ℕ) (U := UR sig nD τ) (Lvl := ℕ) cfgs 1 winFacts₀1.arr_unscoped c (V c)
  change unscopedBufs c (V c) = iprop(Pipeline.arrBufs spec1 c (V c) ∗ Pipeline.unscopedRest spec1 c (V c)) at h
  rw [h, arrBufs1_eq, arrays1_eq]
  have hs : ((((c : Thread nD τ).loc main_v8) ↦{fullShare} V c main_v8 : sProp 𝕄))
      ⊢ iprop((((c : Thread nD τ).loc main_v8) ↦{fullShare.left} V c main_v8) ∗ (((c : Thread nD τ).loc main_v8) ↦{fullShare.right} V c main_v8)) :=
    (pointsTo_share (PosShare.mem_left_op_right fullShare)).1
  iintro ⟨⟨H8, H1, H9⟩, Hr⟩
  ihave H8' := hs $$ H8
  icases H8' with ⟨H8l, H8r⟩
  isplitr [Hr]
  · isplitl [H8l]; · iexact H8l
    isplitl [H8r]; · iexact H8r
    isplitl [H1]; · iexact H1
    iexact H9
  iexact Hr

/-- EXIT: the second region's arrays at contents `G` — the two halves of the score array joined — and the unscoped
    rest are the unscoped buffers at any valuation that has the arrays at `G` and agrees off them. -/
theorem unscopedBufs_of_arrays1 (V : (c : Dev nD) → (b : Ref sig .tc) → Buf (Elt F) ((c : Thread nD τ).loc b)) (c : Dev nD)
    (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V c b) :
    iprop((dat1 V c).arrays G ∗ Pipeline.unscopedRest spec1 c (V c))
      ⊢ (unscopedBufs (Ix := Unit) (Name := ℕ) (U := UR sig nD τ) (Lvl := ℕ) c V' : sProp 𝕄) := by
  have h := Pipeline.unscopedBufs_split₀ (Ix := Unit) (Name := ℕ) (U := UR sig nD τ) (Lvl := ℕ) cfgs 1 winFacts₀1.arr_unscoped c V'
  change unscopedBufs c V' = iprop(Pipeline.arrBufs spec1 c V' ∗ Pipeline.unscopedRest spec1 c V') at h
  have hr : (Pipeline.unscopedRest (Ix := Unit) (Name := ℕ) (U := UR sig nD τ) (Lvl := ℕ) spec1 c (V c) : sProp 𝕄) = Pipeline.unscopedRest spec1 c V' := by
    unfold Pipeline.unscopedRest
    exact bigSep_congr fun b hb => by rw [hrest b (Finset.mem_sdiff.mp hb).2]
  rw [h, arrBufs1_eq, arrays1_eq, hr, hG 0, hG 1, hG 2, hG 3]
  have hj : iprop((((c : Thread nD τ).loc main_v8) ↦{fullShare.left} V' main_v8) ∗ (((c : Thread nD τ).loc main_v8) ↦{fullShare.right} V' main_v8))
      ⊢ ((((c : Thread nD τ).loc main_v8) ↦{fullShare} V' main_v8 : sProp 𝕄)) :=
    (pointsTo_share (PosShare.mem_left_op_right fullShare)).2
  show iprop(((((c : Thread nD τ).loc main_v8) ↦{fullShare.left} V' main_v8) ∗ (((c : Thread nD τ).loc main_v8) ↦{fullShare.right} V' main_v8)
      ∗ (((c : Thread nD τ).loc main_arg1) ↦{fullShare} V' main_arg1) ∗ (((c : Thread nD τ).loc main_v9) ↦{fullShare} V' main_v9)) ∗ Pipeline.unscopedRest spec1 c V')
    ⊢ iprop(((((c : Thread nD τ).loc main_v8) ↦{fullShare} V' main_v8) ∗ (((c : Thread nD τ).loc main_arg1) ↦{fullShare} V' main_arg1) ∗ (((c : Thread nD τ).loc main_v9) ↦{fullShare} V' main_v9)) ∗ Pipeline.unscopedRest spec1 c V')
  iintro ⟨⟨H8l, H8r, H1, H9⟩, Hr⟩
  isplitr [Hr]
  · isplitl [H8l H8r]
    · iapply hj; isplitl [H8l] <;> iassumption
    isplitl [H1]; · iexact H1
    iexact H9
  iexact Hr

/-- What the second region's arrays hold at its exit, in terms of the exit valuation. -/
theorem hF1 (c : Dev nD) (w : Fin cfg1.W) : (dat1 (V2 m ρ) c).arrAt w cfg1.N = V3 m ρ c (Pipeline.arrRef spec1 w) :=
  match w with
  | ⟨0, _⟩ => ((dat1 (V2 m ρ) c).arrAt_in 0 rfl _).trans ((A_eq1 (V2 m ρ) c 0).trans (W3_of_ne m ρ c main_v8 (by decide)).symm)
  | ⟨1, _⟩ => ((dat1 (V2 m ρ) c).arrAt_in 1 rfl _).trans ((A_eq1 (V2 m ρ) c 1).trans (W3_of_ne m ρ c main_v8 (by decide)).symm)
  | ⟨2, _⟩ => ((dat1 (V2 m ρ) c).arrAt_in 2 rfl _).trans ((A_eq1 (V2 m ρ) c 2).trans (W3_of_ne m ρ c main_arg1 (by decide)).symm)
  | ⟨3, _⟩ => (W3_main_v9 m ρ c).symm
theorem hrest1 (c : Dev nD) : ∀ b, b ∉ Finset.univ.image (Pipeline.arrRef spec1) → V3 m ρ c b = V2 m ρ c b :=
  fun b hb => W3_of_ne m ρ c b fun e => hb (Finset.mem_image.mpr ⟨3, Finset.mem_univ _, e.symm⟩)

/-! ## The second region as a segment -/

set_option backward.isDefEq.respectTransparency.types false in
/-- Entered from every unscoped buffer at `W2`, left at `W3`. At entry the score array's share is split between the
    two windows that read it, at exit it is joined again; the invariant takes the scoped buffers no window stages (the
    accumulator's among them) and the generator register, and gives them back. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays1_of_unscopedBufs (V2 m ρ) c
    rw [show unscopedBufs c (V2 m ρ c) = StableHlo.held (c : Thread nD τ) (Pipeline.ucRefs τ sig) (W2 m ρ c)
      from Pipeline.unscopedBufs_held c (W2 m ρ c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := unscopedBufs_of_arrays1 (V2 m ρ) c (V3 m ρ c) ((dat1 (V2 m ρ) c).arrAt · cfg1.N) (hF1 m ρ c) (hrest1 m ρ c)
    rw [show unscopedBufs c (V3 m ρ c) = StableHlo.held (c : Thread nD τ) (Pipeline.ucRefs τ sig) (W3 m ρ c)
      from Pipeline.unscopedBufs_held c (W3 m ρ c)] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## @main as segments, and the launch -/

/-- @main's three segments in order: the host stretch, then the two regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main is the run of those segments. -/
theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

end Cert.KernelIdeal.Hand

end
-- ==== Proof.KernelIdeal.Args.lean ====
/- The program's four arguments at the end of the run. Each boundary valuation is the one before it changed only at
   the arrays a segment writes: the host operations write the eight intermediate arrays, the score region its result
   array, the normalising region the final result array. None of these is an argument, so walking the fold back from
   the last boundary to the launch memory leaves every argument at its launch contents. -/
import proofs.«154450_j74586402063284_1_alg».proof.Proof.KernelIdeal.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arguments end as launched -/

/-- No host operation and no region writes an argument: at the end it holds its launch contents. -/
theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg0) := rfl

/-- The same of argument 1: the second region reads it through an input window, which writes nothing back. -/
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg1) := rfl

/-- The same of argument 2, which only the host operations read. -/
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg2) := rfl

/-- The same of argument 3, which only the host operations read. -/
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.binary_writes, Finset.mem_singleton]
          repeat' apply And.intro
          all_goals exact StableHlo.devRef_ne_of_ne (by decide)))
    _ = m ((c : Thread nD τ).loc main_arg3) := rfl

end Cert.KernelIdeal.Hand

end
-- ==== Proof.Spec.lean ====
/- The mathematics both programs compute, stated once over the extended reals and with no program in sight.
   A feature matrix `f` (128 × 4096) is scaled row by row by a weight vector; the score of a pair of nodes is the
   exponential of the inner product of their two scaled columns; and each score is divided by the sum, over all
   nodes `m`, of the score of `(m, i)` weighted by the adjacency entry `(j, m)`. -/
import Idealize.ShloMosaic.PureOps.Ideal
import Idealize.ShloMosaic.Lib.ValueIdx

noncomputable section

open scoped BigOperators

namespace Cert.Spec

open Idealize.ShloMosaic Idealize.ShloMosaic.ValueIdx

/-- Index sets of the arrays involved. -/
abbrev SVec : Shape := ⟨1, ![128]⟩
abbrev SFeat : Shape := ⟨2, ![128, 4096]⟩
abbrev SMat : Shape := ⟨2, ![4096, 4096]⟩

/-- Row `d` of the feature matrix scaled by the weight `w d`. -/
def scaled (w : SVec.Idx → EReal) (f : SFeat.Idx → EReal) : SFeat.Idx → EReal :=
  fun y => w (ix1 (y 0)) * f y

/-- The score matrix of two scaled feature matrices: entry `(n, m)` is `exp (∑ d, A d n * B d m)`. -/
def scoreOf (A B : SFeat.Idx → EReal) : SMat.Idx → EReal :=
  fun y => Ideal.exp (∑ d : Fin 128, A (ix2 d (y 0)) * B (ix2 d (y 1)))

/-- The normaliser of entry `(i, j)`: the scores of column `i` weighted by row `j` of the adjacency matrix. -/
def denomOf (S nbr : SMat.Idx → EReal) : SMat.Idx → EReal :=
  fun y => ∑ m : Fin 4096, S (ix2 m (y 0)) * nbr (ix2 (y 1) m)

/-- A score matrix normalised entry by entry. -/
def normOf (S nbr : SMat.Idx → EReal) : SMat.Idx → EReal :=
  fun y => Ideal.div (S y) (denomOf S nbr y)

/-- The whole computation, from the four inputs. -/
def result (f : SFeat.Idx → EReal) (nbr : SMat.Idx → EReal) (wq wk : SVec.Idx → EReal) : SMat.Idx → EReal :=
  normOf (scoreOf (scaled wq f) (scaled wk f)) nbr

end Cert.Spec

end
-- ==== Proof.KernelIdeal.Value0.lean ====
/- The first kernel region's output array after the region, as one function of the two arrays it reads: every entry
   (n, m) of the score array is the exponential of the inner product of column n of the scaled query features and column
   m of the scaled key features. First the body's stored value at an index of its block, then each block read off its
   array, then the blocks assembled into the array. -/
import proofs.«154450_j74586402063284_1_alg».proof.Proof.KernelIdeal.Region0
import proofs.«154450_j74586402063284_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The body's stored value at an index -/

/-- The product contracts the row axis of both operands: the left operand is read at (contraction index, output row), -/
theorem lhs_score_0 (i : S1024x1024.Idx) (q : dot_S128x1024_S128x1024_S1024x1024_0_0_1_1_n_n.contr.Idx) :
    (dot_S128x1024_S128x1024_S1024x1024_0_0_1_1_n_n.lhsIdx i q 0).val = (q ⟨0, by decide⟩).val :=
  dot_S128x1024_S128x1024_S1024x1024_0_0_1_1_n_n.lhsIdx_val_of_single rfl i q
theorem lhs_score_1 (i : S1024x1024.Idx) (q : dot_S128x1024_S128x1024_S1024x1024_0_0_1_1_n_n.contr.Idx) :
    (dot_S128x1024_S128x1024_S1024x1024_0_0_1_1_n_n.lhsIdx i q 1).val = (i 0).val := by
  unfold DotDims.lhsIdx
  rw [dif_neg (show ¬(1 : Fin S128x1024.rank) ∈ dot_S128x1024_S128x1024_S1024x1024_0_0_1_1_n_n.lhsBatch by decide), dif_pos (show (1 : Fin S128x1024.rank) ∈ dot_S128x1024_S128x1024_S1024x1024_0_0_1_1_n_n.lhsNonContracting by decide)]
  rfl
/-- and the right operand at (contraction index, output column). -/
theorem rhs_score_0 (i : S1024x1024.Idx) (q : dot_S128x1024_S128x1024_S1024x1024_0_0_1_1_n_n.contr.Idx) :
    (dot_S128x1024_S128x1024_S1024x1024_0_0_1_1_n_n.rhsIdx i q 0).val = (q ⟨0, by decide⟩).val :=
  dot_S128x1024_S128x1024_S1024x1024_0_0_1_1_n_n.rhsIdx_val_of_single rfl i q
theorem rhs_score_1 (i : S1024x1024.Idx) (q : dot_S128x1024_S128x1024_S1024x1024_0_0_1_1_n_n.contr.Idx) :
    (dot_S128x1024_S128x1024_S1024x1024_0_0_1_1_n_n.rhsIdx i q 1).val = (i 1).val := by
  unfold DotDims.rhsIdx
  rw [dif_neg (show ¬(1 : Fin S128x1024.rank) ∈ dot_S128x1024_S128x1024_S1024x1024_0_0_1_1_n_n.rhsBatch by decide), dif_pos (show (1 : Fin S128x1024.rank) ∈ dot_S128x1024_S128x1024_S1024x1024_0_0_1_1_n_n.rhsNonContracting by decide)]
  rfl

/-- The product of two 128 × 1024 blocks over their rows, into the zero accumulator, at entry (p, q): the inner
    product of column p of the first and column q of the second. -/
theorem matmul_score_apply (x0 x1 : FVec Ideal S128x1024 .bf16) (p q : Fin 1024) :
    FloatOps.matmul dot_S128x1024_S128x1024_S1024x1024_0_0_1_1_n_n none x0 x1 (constant (F := Ideal) S1024x1024 .f32 0x00000000#32) (ix2 p q)
      = ∑ d : Fin 128, x0 (ix2 d p) * x1 (ix2 d q) := by
  rw [Ideal.matmul_constant_zero_apply, ← Equiv.sum_comp (contrEquiv1 dot_S128x1024_S128x1024_S1024x1024_0_0_1_1_n_n 128 rfl rfl).symm]
  refine Finset.sum_congr rfl fun k _ => ?_
  have hk := contrEquiv1_symm_val dot_S128x1024_S128x1024_S1024x1024_0_0_1_1_n_n 128 rfl rfl k
  have el : dot_S128x1024_S128x1024_S1024x1024_0_0_1_1_n_n.lhsIdx (ix2 p q) ((contrEquiv1 dot_S128x1024_S128x1024_S1024x1024_0_0_1_1_n_n 128 rfl rfl).symm k) = ix2 k p := funext fun a => Fin.ext (by
    match a with
    | ⟨0, _⟩ => exact (lhs_score_0 _ _).trans hk
    | ⟨1, _⟩ => exact lhs_score_1 _ _)
  have er : dot_S128x1024_S128x1024_S1024x1024_0_0_1_1_n_n.rhsIdx (ix2 p q) ((contrEquiv1 dot_S128x1024_S128x1024_S1024x1024_0_0_1_1_n_n 128 rfl rfl).symm k) = ix2 k q := funext fun a => Fin.ext (by
    match a with
    | ⟨0, _⟩ => exact (rhs_score_0 _ _).trans hk
    | ⟨1, _⟩ => exact rhs_score_1 _ _)
  rw [el, er]

/-- The body's stored value at entry (p, q) of its block: the exponential of the inner product of column p of its
    first input block and column q of its second. The shape casts are identities and the narrowing is the identity on
    the extended reals. -/
theorem pay_score_apply (x0 x1 : Vec Ideal S128x1024 .bf16) (p q : Fin 1024) :
    k0_pay1 (F := Ideal) x0 x1 (ix2 p q) = Ideal.exp (∑ d : Fin 128, x0 (ix2 d p) * x1 (ix2 d q)) := by
  unfold k0_pay1
  simp only [shapeCast_self]
  show Ideal.exp (FloatOps.matmul dot_S128x1024_S128x1024_S1024x1024_0_0_1_1_n_n none x0 x1 (constant (F := Ideal) S1024x1024 .f32 0x00000000#32) (ix2 p q)) = _
  rw [matmul_score_apply]

theorem hz0 : (![0, 0] : Fin 2 → Nat) = fun _ => 0 := funext fun a => by fin_cases a <;> rfl

/-- The body's one store is of the whole buffer and its loads are of whole buffers: the output buffer after the body is
    the stored value of the two input buffers. -/
theorem out0_2_eq (x0 x1 : Vec Ideal S128x1024 .bf16) : out0_2 (F := Ideal) x0 x1 = k0_pay1 (F := Ideal) x0 x1 := by
  unfold out0_2
  rw [View.canon_unit_zero hz0]
  simp only [View.ld_unit_zero (S := S128x1024) hz0]

variable (V : (c : Dev nD) → (b : Ref sig .tc) → Buf (Elt Ideal) ((c : Thread nD τ).loc b))

/-! ## Each block read off its array -/

/-- The three windows' block indices over the 16 grid points: the query block is column block i and the key block column
    block j, where (i, j) is the output's block index; both stay below 4. -/
theorem blockIdx_facts0 : ∀ t : Fin cfg0.N, win0_0.index t (0 : Fin 2) = 0
    ∧ win0_0.index t (1 : Fin 2) = win0_2.index t (0 : Fin 2)
    ∧ win0_1.index t (0 : Fin 2) = 0
    ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every block index (i, j) below (4, 4) is some grid point's. -/
theorem blockIdx_onto0 : ∀ (q0 q1 : Fin 4), ∃ t : Fin cfg0.N, win0_2.index t = ![q0.val, q1.val] :=
  (by decide +kernel : ∀ (q0 q1 : Fin 4), ∃ t : Fin grid0.N, win0_2.index t = ![q0.val, q1.val])

/-- The query block at a point: entry (d, p) is the query array at (d, n), n the p-th column of the output's row block. -/
theorem iblk0_0_apply (c : Dev nD) (t : Fin cfg0.N) (d : Fin 128) (p : Fin 1024) (n : Fin 4096)
    (hn : n.val = win0_2.index t (0 : Fin 2) * 1024 + 1 * p.val) :
    (iblk0 (F := Ideal) V c 0 t : Vec Ideal S128x1024 .bf16) (ix2 d p) = (V c main_v3 : S128x4096.Idx → EReal) (ix2 d n) := by
  obtain ⟨e0, e1, -⟩ := blockIdx_facts0 t
  unfold iblk0
  rw [View.read_apply]
  show V c main_v3 (((cfg0.win 0).blk t).view.emb (ix2 d p)) = V c main_v3 (ix2 d n)
  congr 1
  funext a; apply Fin.ext
  match a with
  | ⟨0, _⟩ => show win0_0.index t (0 : Fin 2) * 128 + 1 * d.val = d.val; omega
  | ⟨1, _⟩ => show win0_0.index t (1 : Fin 2) * 1024 + 1 * p.val = n.val; omega

/-- The key block at a point: entry (d, q) is the key array at (d, m), m the q-th column of the output's column block. -/
theorem iblk0_1_apply (c : Dev nD) (t : Fin cfg0.N) (d : Fin 128) (q : Fin 1024) (m : Fin 4096)
    (hm : m.val = win0_2.index t (1 : Fin 2) * 1024 + 1 * q.val) :
    (iblk0 (F := Ideal) V c 1 t : Vec Ideal S128x1024 .bf16) (ix2 d q) = (V c main_v7 : S128x4096.Idx → EReal) (ix2 d m) := by
  obtain ⟨-, -, e0, e1, -⟩ := blockIdx_facts0 t
  unfold iblk0
  rw [View.read_apply]
  show V c main_v7 (((cfg0.win 1).blk t).view.emb (ix2 d q)) = V c main_v7 (ix2 d m)
  congr 1
  funext a; apply Fin.ext
  match a with
  | ⟨0, _⟩ => show win0_1.index t (0 : Fin 2) * 128 + 1 * d.val = d.val; omega
  | ⟨1, _⟩ => show win0_1.index t (1 : Fin 2) * 1024 + 1 * q.val = m.val; omega

/-- The body's stored value at a point, at entry j of its block, is the score at the array index y the block puts j at. -/
theorem score_block0 (c : Dev nD) (t : Fin cfg0.N) (j : S1024x1024.Idx) (y : S4096x4096.Idx)
    (h0 : (y 0).val = win0_2.index t (0 : Fin 2) * 1024 + 1 * (j 0).val)
    (h1 : (y 1).val = win0_2.index t (1 : Fin 2) * 1024 + 1 * (j 1).val) :
    k0_pay1 (F := Ideal) (iblk0 (F := Ideal) V c 0 t) (iblk0 (F := Ideal) V c 1 t) j
      = (Cert.Spec.scoreOf (V c main_v3) (V c main_v7) : S4096x4096.Idx → EReal) y := by
  obtain ⟨p, q, rfl⟩ : ∃ (p q : Fin 1024), j = ix2 p q := ⟨j 0, j 1, eq_ix2 j⟩
  obtain ⟨n, m, rfl⟩ : ∃ (n m : Fin 4096), y = ix2 n m := ⟨y 0, y 1, eq_ix2 y⟩
  rw [pay_score_apply]
  unfold Cert.Spec.scoreOf
  congr 1
  refine Finset.sum_congr rfl fun d _ => ?_
  rw [iblk0_0_apply V c t d p n h0, iblk0_1_apply V c t d q m h1]

/-! ## From the blocks to the array -/

/-- What a point writes back is its block of the score array. -/
theorem flushed0_eq (c : Dev nD) (t : Fin cfg0.N) :
    (dat0 (F := Ideal) V c).flushed 2 t
      = ((cfg0.win 2).blk t).view.read (Elt Ideal) (Cert.Spec.scoreOf (V c main_v3) (V c main_v7) : S4096x4096.Idx → EReal) := by
  show (cfg0.win 2).cut (grid0.coords t) ((dat0 (F := Ideal) V c).after 2 t) = _
  rw [after0_2, out0_2_eq]
  funext j
  exact score_block0 V c t j (((cfg0.win 2).blk t).view.emb j) rfl rfl

/-- An index of the array is in a point's block iff each coordinate is in the block's range on its axis. -/
theorem mem_blk0 (t : Fin cfg0.N) (i : S4096x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v8).slice (win0_2.rect t)).set ↔ _
  rw [View.set_slice_whole, Rect.mem_set_unit]
  exact Iff.rfl

/-- The 16 blocks tile the array: index (n, m) is in the block of the point whose block index is (n / 1024, m / 1024). -/
theorem cover0 (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := blockIdx_onto0 ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the first region every entry (n, m) of the score array is exp (∑ d, A d n * B d m), A and B the two scaled
    feature arrays the region found. -/
theorem final0 (c : Dev nD) :
    (dat0 (F := Ideal) V c).arrAt 2 cfg0.N = (Cert.Spec.scoreOf (V c main_v3) (V c main_v7) : S4096x4096.Idx → EReal) :=
  (dat0 (F := Ideal) V c).arrAt_eq_of_cover 2 (Cert.Spec.scoreOf (V c main_v3) (V c main_v7) : S4096x4096.Idx → EReal)
    (fun t _ => flushed0_eq V c t) cover0

end Cert.KernelIdeal.Hand

end
-- ==== Proof.KernelIdeal.ValueHost.lean ====
/- What the host operations before the first kernel region leave in the arrays the region reads: the query array is the
   features scaled row by row by the first weight vector, the key array the features scaled by the second, and the
   adjacency argument is left as launched. -/
import proofs.«154450_j74586402063284_1_alg».proof.Proof.Gen.KernelIdeal.Launch
import proofs.«154450_j74586402063284_1_alg».proof.Proof.Gen.KernelIdeal.Regions
import proofs.«154450_j74586402063284_1_alg».proof.Proof.Spec
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.StableHlo
open Idealize.ShloMosaic.ValueIdx
open Cert.KernelIdeal Cert.KernelIdeal.Gen

/-- A vector broadcast along a new trailing unit axis and then along the columns, read at (d, n), is the vector at d. -/
theorem bcast_rows_apply (w : (⟨S128, .f32⟩ : BufTy).Contents (Elt Ideal)) (d : Fin 128) (n : Fin 4096) :
    broadcastInDim S128x4096 ![0, 1] bcast_S128x1_S128x4096_0_1 (broadcastInDim S128x1 ![0] bcast_S128_S128x1_0 w) (ix2 d n) = w (ix1 d) := by
  refine (broadcastInDim_apply _ bcast_S128x1_S128x4096_0_1 _ (ix2 d n) (ix2 d (0 : Fin 1)) (fun a => match a with
    | ⟨0, _⟩ => by show d.val = if (128 : Nat) = 1 then 0 else d.val; rw [if_neg (by decide)]
    | ⟨1, _⟩ => by show 0 = if (1 : Nat) = 1 then 0 else n.val; rw [if_pos rfl])).trans ?_
  exact broadcastInDim_apply _ bcast_S128_S128x1_0 w (ix2 d (0 : Fin 1)) (ix1 d) (fun a => match a with
    | ⟨0, _⟩ => by show d.val = if (128 : Nat) = 1 then 0 else d.val; rw [if_neg (by decide)])

variable (m : (ℓ : Loc nD τ sig) → Buf (Elt Ideal) ℓ) (ρ : Dev nD → PrngReg)

/-- The query array the first region reads: the features scaled row by row by the first weight vector. -/
theorem host_v3 (c : Dev nD) : (StableHlo.after (hostOps0 (F := Ideal)) (fun b => (s₀ m ρ).mem ((c : Dev nD), b)) (Proc.devRef .tc main_v3) : S128x4096.Idx → EReal)
    = Cert.Spec.scaled (m ((c : Thread nD τ).loc main_arg2)) (m ((c : Thread nD τ).loc main_arg0)) := by
  after_results
  funext y
  obtain ⟨d, n, rfl⟩ : ∃ (d : Fin 128) (n : Fin 4096), y = ix2 d n := ⟨y 0, y 1, eq_ix2 y⟩
  rw [truncf_apply, mulf_apply, bcast_rows_apply]
  rfl

/-- The key array the first region reads: the features scaled row by row by the second weight vector. -/
theorem host_v7 (c : Dev nD) : (StableHlo.after (hostOps0 (F := Ideal)) (fun b => (s₀ m ρ).mem ((c : Dev nD), b)) (Proc.devRef .tc main_v7) : S128x4096.Idx → EReal)
    = Cert.Spec.scaled (m ((c : Thread nD τ).loc main_arg3)) (m ((c : Thread nD τ).loc main_arg0)) := by
  after_results
  funext y
  obtain ⟨d, n, rfl⟩ : ∃ (d : Fin 128) (n : Fin 4096), y = ix2 d n := ⟨y 0, y 1, eq_ix2 y⟩
  rw [truncf_apply, mulf_apply, bcast_rows_apply]
  rfl

/-- The host operations write none of the arguments: the adjacency argument is as launched. -/
theorem host_arg1 (c : Dev nD) : StableHlo.after (hostOps0 (F := Ideal)) (fun b => (s₀ m ρ).mem ((c : Dev nD), b)) (Proc.devRef .tc main_arg1) = m ((c : Thread nD τ).loc main_arg1) :=
  StableHlo.after_of_writes_sub hostOps0 _ hostOps0_writes (r := main_arg1) (by decide)

end Cert.KernelIdeal.Hand

end
-- ==== Proof.KernelIdeal.Value1.lean ====
/- The second kernel region's output array after the region, as one function of the two arrays it reads: every entry
   (n, m) of the result array is the score S n m divided by the sum, over all nodes l, of S l n times the adjacency
   entry (m, l). First the body's stored values at an index of their block, then each block read off its array, then
   the accumulator along a run of eight points as a partial sum, then the blocks assembled into the array. -/
import proofs.«154450_j74586402063284_1_alg».proof.Proof.KernelIdeal.Region1
import proofs.«154450_j74586402063284_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Algebra.BigOperators.Group.Finset.Basic
import Mathlib.Data.Fintype.BigOperators
import Mathlib.Logic.Equiv.Fin.Basic

set_option maxRecDepth 16384

noncomputable section

open scoped BigOperators

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The body's stored values at an index -/

/-- The block product contracts the rows of the score block with the columns of the adjacency block: the left operand
    is read at (contraction index, output row), -/
theorem lhs_acc_0 (i : S1024x1024.Idx) (q : dot_S512x1024_S1024x512_S1024x1024_0_1_1_0_n_n.contr.Idx) :
    (dot_S512x1024_S1024x512_S1024x1024_0_1_1_0_n_n.lhsIdx i q 0).val = (q ⟨0, by decide⟩).val :=
  dot_S512x1024_S1024x512_S1024x1024_0_1_1_0_n_n.lhsIdx_val_of_single rfl i q
theorem lhs_acc_1 (i : S1024x1024.Idx) (q : dot_S512x1024_S1024x512_S1024x1024_0_1_1_0_n_n.contr.Idx) :
    (dot_S512x1024_S1024x512_S1024x1024_0_1_1_0_n_n.lhsIdx i q 1).val = (i 0).val := by
  unfold DotDims.lhsIdx
  rw [dif_neg (show ¬(1 : Fin S512x1024.rank) ∈ dot_S512x1024_S1024x512_S1024x1024_0_1_1_0_n_n.lhsBatch by decide), dif_pos (show (1 : Fin S512x1024.rank) ∈ dot_S512x1024_S1024x512_S1024x1024_0_1_1_0_n_n.lhsNonContracting by decide)]
  rfl
/-- and the right operand at (output column, contraction index). -/
theorem rhs_acc_0 (i : S1024x1024.Idx) (q : dot_S512x1024_S1024x512_S1024x1024_0_1_1_0_n_n.contr.Idx) :
    (dot_S512x1024_S1024x512_S1024x1024_0_1_1_0_n_n.rhsIdx i q 0).val = (i 1).val := by
  unfold DotDims.rhsIdx
  rw [dif_neg (show ¬(0 : Fin S1024x512.rank) ∈ dot_S512x1024_S1024x512_S1024x1024_0_1_1_0_n_n.rhsBatch by decide), dif_pos (show (0 : Fin S1024x512.rank) ∈ dot_S512x1024_S1024x512_S1024x1024_0_1_1_0_n_n.rhsNonContracting by decide)]
  rfl
theorem rhs_acc_1 (i : S1024x1024.Idx) (q : dot_S512x1024_S1024x512_S1024x1024_0_1_1_0_n_n.contr.Idx) :
    (dot_S512x1024_S1024x512_S1024x1024_0_1_1_0_n_n.rhsIdx i q 1).val = (q ⟨0, by decide⟩).val :=
  dot_S512x1024_S1024x512_S1024x1024_0_1_1_0_n_n.rhsIdx_val_of_single rfl i q

/-- The product of a 512 × 1024 block with a 1024 × 512 block over the 512 shared nodes, into the zero accumulator, at
    entry (p, q): the inner product of column p of the first with row q of the second. -/
theorem matmul_acc_apply (x0 : FVec Ideal S512x1024 .bf16) (x2 : FVec Ideal S1024x512 .bf16) (p q : Fin 1024) :
    FloatOps.matmul dot_S512x1024_S1024x512_S1024x1024_0_1_1_0_n_n none x0 x2 (constant (F := Ideal) S1024x1024 .f32 0x00000000#32) (ix2 p q)
      = ∑ m : Fin 512, x0 (ix2 m p) * x2 (ix2 q m) := by
  rw [Ideal.matmul_constant_zero_apply, ← Equiv.sum_comp (contrEquiv1 dot_S512x1024_S1024x512_S1024x1024_0_1_1_0_n_n 512 rfl rfl).symm]
  refine Finset.sum_congr rfl fun k _ => ?_
  have hk := contrEquiv1_symm_val dot_S512x1024_S1024x512_S1024x1024_0_1_1_0_n_n 512 rfl rfl k
  have el : dot_S512x1024_S1024x512_S1024x1024_0_1_1_0_n_n.lhsIdx (ix2 p q) ((contrEquiv1 dot_S512x1024_S1024x512_S1024x1024_0_1_1_0_n_n 512 rfl rfl).symm k) = ix2 k p := funext fun a => Fin.ext (by
    match a with
    | ⟨0, _⟩ => exact (lhs_acc_0 _ _).trans hk
    | ⟨1, _⟩ => exact lhs_acc_1 _ _)
  have er : dot_S512x1024_S1024x512_S1024x1024_0_1_1_0_n_n.rhsIdx (ix2 p q) ((contrEquiv1 dot_S512x1024_S1024x512_S1024x1024_0_1_1_0_n_n 512 rfl rfl).symm k) = ix2 q k := funext fun a => Fin.ext (by
    match a with
    | ⟨0, _⟩ => exact rhs_acc_0 _ _
    | ⟨1, _⟩ => exact (rhs_acc_1 _ _).trans hk)
  rw [el, er]

/-- The accumulating step at entry (p, q) of the block: what the accumulator held there plus the inner product of column
    p of the score block with row q of the adjacency block. The shape casts are identities and the narrowing is the
    identity on the extended reals. -/
theorem pay_acc_apply (x0 : Vec Ideal S512x1024 .bf16) (x2 : Vec Ideal S1024x512 .f32) (xs : Vec Ideal S1024x1024 .f32) (p q : Fin 1024) :
    k1_pay2 (F := Ideal) x0 x2 xs (ix2 p q) = xs (ix2 p q) + ∑ m : Fin 512, x0 (ix2 m p) * x2 (ix2 q m) := by
  unfold k1_pay2
  simp only [shapeCast_self]
  show xs (ix2 p q) + FloatOps.matmul dot_S512x1024_S1024x512_S1024x1024_0_1_1_0_n_n none x0 (truncf (F := Ideal) .bf16 x2 bitsLt_bf16_f32) (constant (F := Ideal) S1024x1024 .f32 0x00000000#32) (ix2 p q) = _
  rw [matmul_acc_apply]
  rfl

/-- The accumulator's reset value is zero everywhere. -/
theorem pay_zero_apply (p q : Fin 1024) : k1_pay1 (F := Ideal) (ix2 p q) = 0 := by
  unfold k1_pay1
  simp only [shapeCast_self]
  exact Ideal.ofBits_zero_f32

/-- The output step at entry (p, q): the score block's entry divided by the accumulator's. The widening is the identity
    on the extended reals. -/
theorem pay_out_apply (x1 : Vec Ideal S1024x1024 .bf16) (acc : Vec Ideal S1024x1024 .f32) (p q : Fin 1024) :
    k1_pay3 (F := Ideal) x1 acc (ix2 p q) = Ideal.div (x1 (ix2 p q)) (acc (ix2 p q)) := by
  unfold k1_pay3
  simp only [shapeCast_self]
  rfl

/-! ## Each block read off its array -/

/-- The printed index maps, decided once over the 128 points: point t is (i, j, k) = (t / 32, t / 8 mod 4, t mod 8); the
    score block is block (k, i), the diagonal block and the output block are block (i, j), the adjacency block is (j, k). -/
theorem idx_facts1 : ∀ t : Fin cfg1.N, win1_0.index t (0 : Fin 2) = t.val % 8 ∧ win1_0.index t (1 : Fin 2) = t.val / 32
    ∧ win1_1.index t (0 : Fin 2) = t.val / 32 ∧ win1_1.index t (1 : Fin 2) = t.val / 8 % 4
    ∧ win1_2.index t (0 : Fin 2) = t.val / 8 % 4 ∧ win1_2.index t (1 : Fin 2) = t.val % 8
    ∧ win1_3.index t (0 : Fin 2) = t.val / 32 ∧ win1_3.index t (1 : Fin 2) = t.val / 8 % 4 :=
  (by decide +kernel : ∀ t : Fin grid1.N, _)

variable (V : (c : Dev nD) → (b : Ref sig .tc) → Buf (Elt Ideal) ((c : Thread nD τ).loc b))

/-- The score block of point t holds rows 512 k … 512 k + 511 and columns 1024 i … 1024 i + 1023 of the score array. -/
theorem blk_score_apply (c : Dev nD) (t : Fin cfg1.N) (m : Fin 512) (p : Fin 1024) :
    iblk1 (F := Ideal) V c 0 t (ix2 m p)
      = V c main_v8 (ix2 (n0 := 4096) (n1 := 4096) ⟨512 * (t.val % 8) + m.val, by omega⟩ ⟨1024 * (t.val / 32) + p.val, by have := t.isLt; have : cfg1.N = 128 := N_1; omega⟩) := by
  obtain ⟨e0, e1, -⟩ := idx_facts1 t
  show V c main_v8 (((cfg1.win 0).blk t).view.emb (ix2 m p)) = _
  congr 1
  funext a
  apply Fin.ext
  match a with
  | ⟨0, _⟩ => show win1_0.index t (0 : Fin 2) * 512 + 1 * m.val = 512 * (t.val % 8) + m.val; rw [e0]; omega
  | ⟨1, _⟩ => show win1_0.index t (1 : Fin 2) * 1024 + 1 * p.val = 1024 * (t.val / 32) + p.val; rw [e1]; omega

/-- The diagonal score block of point t holds rows 1024 i … and columns 1024 j … of the score array. -/
theorem blk_diag_apply (c : Dev nD) (t : Fin cfg1.N) (p q : Fin 1024) :
    iblk1 (F := Ideal) V c 1 t (ix2 p q)
      = V c main_v8 (ix2 (n0 := 4096) (n1 := 4096) ⟨1024 * (t.val / 32) + p.val, by have := t.isLt; have : cfg1.N = 128 := N_1; omega⟩ ⟨1024 * (t.val / 8 % 4) + q.val, by omega⟩) := by
  obtain ⟨-, -, e0, e1, -⟩ := idx_facts1 t
  show V c main_v8 (((cfg1.win 1).blk t).view.emb (ix2 p q)) = _
  congr 1
  funext a
  apply Fin.ext
  match a with
  | ⟨0, _⟩ => show win1_1.index t (0 : Fin 2) * 1024 + 1 * p.val = 1024 * (t.val / 32) + p.val; rw [e0]; omega
  | ⟨1, _⟩ => show win1_1.index t (1 : Fin 2) * 1024 + 1 * q.val = 1024 * (t.val / 8 % 4) + q.val; rw [e1]; omega

/-- The adjacency block of point t holds rows 1024 j … and columns 512 k … of the adjacency array. -/
theorem blk_nbr_apply (c : Dev nD) (t : Fin cfg1.N) (q : Fin 1024) (m : Fin 512) :
    iblk1 (F := Ideal) V c 2 t (ix2 q m)
      = V c main_arg1 (ix2 (n0 := 4096) (n1 := 4096) ⟨1024 * (t.val / 8 % 4) + q.val, by omega⟩ ⟨512 * (t.val % 8) + m.val, by omega⟩) := by
  obtain ⟨-, -, -, -, e0, e1, -⟩ := idx_facts1 t
  show V c main_arg1 (((cfg1.win 2).blk t).view.emb (ix2 q m)) = _
  congr 1
  funext a
  apply Fin.ext
  match a with
  | ⟨0, _⟩ => show win1_2.index t (0 : Fin 2) * 1024 + 1 * q.val = 1024 * (t.val / 8 % 4) + q.val; rw [e0]; omega
  | ⟨1, _⟩ => show win1_2.index t (1 : Fin 2) * 512 + 1 * m.val = 512 * (t.val % 8) + m.val; rw [e1]; omega

/-! ## The accumulator along a run of eight points -/

/-- An entry of a 4096 × 4096 array at a pair of naturals (zero outside the array, which is never read). -/
def rd (A : S4096x4096.Idx → EReal) (a b : ℕ) : EReal :=
  if h : a < 4096 ∧ b < 4096 then A (ix2 ⟨a, h.1⟩ ⟨b, h.2⟩) else 0

theorem rd_of_lt (A : S4096x4096.Idx → EReal) (a b : ℕ) (ha : a < 4096) (hb : b < 4096) :
    rd A a b = A (ix2 ⟨a, ha⟩ ⟨b, hb⟩) := dif_pos ⟨ha, hb⟩

theorem blk_score_rd (c : Dev nD) (n : ℕ) (hn : n < cfg1.N) (m : Fin 512) (p : Fin 1024) :
    iblk1 (F := Ideal) V c 0 ⟨n, hn⟩ (ix2 m p) = rd (V c main_v8) (512 * (n % 8) + m.val) (1024 * (n / 32) + p.val) :=
  (blk_score_apply V c ⟨n, hn⟩ m p).trans (rd_of_lt _ _ _ _ _).symm

theorem blk_diag_rd (c : Dev nD) (n : ℕ) (hn : n < cfg1.N) (p q : Fin 1024) :
    iblk1 (F := Ideal) V c 1 ⟨n, hn⟩ (ix2 p q) = rd (V c main_v8) (1024 * (n / 32) + p.val) (1024 * (n / 8 % 4) + q.val) :=
  (blk_diag_apply V c ⟨n, hn⟩ p q).trans (rd_of_lt _ _ _ _ _).symm

theorem blk_nbr_rd (c : Dev nD) (n : ℕ) (hn : n < cfg1.N) (q : Fin 1024) (m : Fin 512) :
    iblk1 (F := Ideal) V c 2 ⟨n, hn⟩ (ix2 q m) = rd (V c main_arg1) (1024 * (n / 8 % 4) + q.val) (512 * (n % 8) + m.val) :=
  (blk_nbr_apply V c ⟨n, hn⟩ q m).trans (rd_of_lt _ _ _ _ _).symm

/-- The k-th block of 512 terms of the normaliser of entry (a, b): the scores of column a weighted by row b of the
    adjacency array, over the nodes 512 k … 512 k + 511. -/
def part (S nbr : S4096x4096.Idx → EReal) (a b k : ℕ) : EReal :=
  ∑ m : Fin 512, rd S (512 * k + m.val) a * rd nbr b (512 * k + m.val)

/-- The score block and the adjacency block of the point at position n, at their literal shapes. -/
abbrev sblk (c : Dev nD) (n : ℕ) (hn : n < cfg1.N) : Vec Ideal S512x1024 .bf16 := iblk1 (F := Ideal) V c 0 ⟨n, hn⟩
abbrev nblk (c : Dev nD) (n : ℕ) (hn : n < cfg1.N) : Vec Ideal S1024x512 .f32 := iblk1 (F := Ideal) V c 2 ⟨n, hn⟩

/-- This point's block product at entry (p, q) is the k-th block of the normaliser of the entry's place in the array. -/
theorem prod_eq_part (c : Dev nD) (n : ℕ) (hn : n < cfg1.N) (p q : Fin 1024) :
    ∑ m : Fin 512, sblk V c n hn (ix2 m p) * nblk V c n hn (ix2 q m)
      = part (V c main_v8) (V c main_arg1) (1024 * (n / 32) + p.val) (1024 * (n / 8 % 4) + q.val) (n % 8) :=
  Finset.sum_congr rfl fun m _ =>
    congrArg₂ (fun (x y : EReal) => x * y) (blk_score_rd V c n hn m p) (blk_nbr_rd V c n hn q m)

/-- After the point at position n the accumulator holds, at entry (p, q), the first n mod 8 + 1 blocks of the normaliser
    of the entry (1024 i + p, 1024 j + q): by induction along the points, restarting where n mod 8 = 0. -/
theorem acc_eq (c : Dev nD) : ∀ (n : ℕ) (hn : n < cfg1.N) (p q : Fin 1024),
    accAt1 (F := Ideal) V c n hn (ix2 p q)
      = ∑ k ∈ Finset.range (n % 8 + 1), part (V c main_v8) (V c main_arg1) (1024 * (n / 32) + p.val) (1024 * (n / 8 % 4) + q.val) k := by
  intro n
  induction n with
  | zero =>
    intro hn p q
    refine (congrFun (accAt1_reset V c ⟨0, hn⟩ rfl) (ix2 p q)).trans ?_
    refine (pay_acc_apply _ _ _ p q).trans ?_
    rw [pay_zero_apply, zero_add]
    exact (prod_eq_part V c 0 hn p q).trans (Finset.sum_range_one _).symm
  | succ n ih =>
    intro hn p q
    by_cases h0 : (n + 1) % 8 = 0
    · refine (congrFun (accAt1_reset V c ⟨n + 1, hn⟩ h0) (ix2 p q)).trans ?_
      refine (pay_acc_apply _ _ _ p q).trans ?_
      rw [pay_zero_apply, zero_add, h0]
      refine (prod_eq_part V c (n + 1) hn p q).trans ?_
      rw [h0]
      exact (Finset.sum_range_one _).symm
    · refine (congrFun (accAt1_step V c ⟨n + 1, hn⟩ h0) (ix2 p q)).trans ?_
      refine (pay_acc_apply _ _ _ p q).trans ?_
      have e := ih (Nat.lt_of_succ_lt hn) p q
      have a1 : n / 32 = (n + 1) / 32 := by omega
      have a2 : n / 8 % 4 = (n + 1) / 8 % 4 := by omega
      have a3 : n % 8 + 1 = (n + 1) % 8 := by omega
      rw [a1, a2, a3] at e
      rw [Finset.sum_range_succ]
      exact congrArg₂ (· + ·) e (prod_eq_part V c (n + 1) hn p q)

/-! ## The eight blocks of 512 make the whole sum -/

/-- A sum over 4096 terms is the sum of its eight consecutive blocks of 512. -/
theorem sum_split8 (g : Fin 4096 → EReal) :
    ∑ m : Fin 4096, g m = ∑ k : Fin 8, ∑ b : Fin 512, g ⟨512 * k.val + b.val, by have := k.isLt; have := b.isLt; omega⟩ := by
  refine (Equiv.sum_comp (finProdFinEquiv (m := 8) (n := 512)) g).symm.trans ?_
  rw [Fintype.sum_prod_type]
  refine Finset.sum_congr rfl fun k _ => Finset.sum_congr rfl fun b _ => congrArg g (Fin.ext ?_)
  show b.val + 512 * k.val = 512 * k.val + b.val
  omega

/-- The eight blocks of the normaliser of entry (a, b) add up to the normaliser: the sum over all 4096 nodes. -/
theorem run_sum (S nbr : S4096x4096.Idx → EReal) (a b : ℕ) (ha : a < 4096) (hb : b < 4096) :
    ∑ k ∈ Finset.range 8, part S nbr a b k = ∑ m : Fin 4096, S (ix2 m ⟨a, ha⟩) * nbr (ix2 ⟨b, hb⟩ m) := by
  rw [Finset.sum_range, sum_split8 (fun m => S (ix2 m ⟨a, ha⟩) * nbr (ix2 ⟨b, hb⟩ m))]
  refine Finset.sum_congr rfl fun k _ => Finset.sum_congr rfl fun m _ => ?_
  have hk := k.isLt
  have hm := m.isLt
  rw [rd_of_lt S _ _ (by omega) ha, rd_of_lt nbr _ _ hb (by omega)]

/-! ## The blocks assembled into the array -/

/-- The normalised score at an entry given by its coordinates. -/
theorem normOf_ix2 (S nbr : S4096x4096.Idx → EReal) (A B : Fin 4096) :
    Cert.Spec.normOf S nbr (ix2 A B) = Ideal.div (S (ix2 A B)) (∑ m : Fin 4096, S (ix2 m A) * nbr (ix2 B m)) := rfl

/-- The output block of the point at position n is block (i, j) = (n / 32, n / 8 mod 4). -/
theorem idx_out (n : ℕ) (hn : n < cfg1.N) :
    win1_3.index ⟨n, hn⟩ (0 : Fin 2) = n / 32 ∧ win1_3.index ⟨n, hn⟩ (1 : Fin 2) = n / 8 % 4 :=
  ⟨(idx_facts1 ⟨n, hn⟩).2.2.2.2.2.2.1, (idx_facts1 ⟨n, hn⟩).2.2.2.2.2.2.2⟩

/-- What a point with k = 7 writes back is its block of the normalised scores: the diagonal score block divided by the
    accumulator, which after the eighth point of the run holds the whole normaliser. -/
theorem flushed1_eq (c : Dev nD) (t : Fin cfg1.N) (hf : (cfg1.win 3).flush t = true) :
    (dat1 (F := Ideal) V c).flushed 3 t
      = ((cfg1.win 3).blk t).view.read (Elt Ideal) (Cert.Spec.normOf (V c main_v8) (V c main_arg1)) := by
  have h7 : t.val % 8 = 7 := (flush1_3 t).mp hf
  have hN : cfg1.N = 128 := N_1
  have ht := t.isLt
  obtain ⟨e0, e1⟩ := idx_out t.val t.isLt
  show (cfg1.win 3).cut (grid1.coords t) ((dat1 (F := Ideal) V c).after 3 t) = _
  rw [after1_3]
  funext y
  obtain ⟨p, q, rfl⟩ : ∃ (p q : Fin 1024), y = ix2 p q := ⟨y 0, y 1, eq_ix2 y⟩
  have hp := p.isLt
  have hq := q.isLt
  show outAt1 (F := Ideal) V c t (ix2 p q) = Cert.Spec.normOf (V c main_v8) (V c main_arg1) (((cfg1.win 3).blk t).view.emb (ix2 p q))
  have hemb : ((cfg1.win 3).blk t).view.emb (ix2 p q)
      = ix2 (n0 := 4096) (n1 := 4096) ⟨1024 * (t.val / 32) + p.val, by omega⟩ ⟨1024 * (t.val / 8 % 4) + q.val, by omega⟩ := by
    funext a
    apply Fin.ext
    match a with
    | ⟨0, _⟩ => show win1_3.index t (0 : Fin 2) * 1024 + 1 * p.val = 1024 * (t.val / 32) + p.val; rw [e0]; omega
    | ⟨1, _⟩ => show win1_3.index t (1 : Fin 2) * 1024 + 1 * q.val = 1024 * (t.val / 8 % 4) + q.val; rw [e1]; omega
  rw [hemb, normOf_ix2]
  unfold outAt1
  refine (pay_out_apply _ _ p q).trans ?_
  refine congrArg₂ Ideal.div (blk_diag_apply V c t p q) ((acc_eq V c t.val t.isLt p q).trans ?_)
  rw [h7]
  exact run_sum (V c main_v8) (V c main_arg1) _ _ _ _

/-- An index of the array is in point t's block iff each coordinate is in the block's range on its axis. -/
theorem mem_blk1 (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v9).slice (win1_3.rect t)).set ↔ _
  rw [View.set_slice_whole, Rect.mem_set_unit]
  exact Iff.rfl

/-- Every entry (n, m) of the array is in the block some writing point writes: the last point of the run of block
    (n / 1024, m / 1024). -/
theorem cover1 (i : S4096x4096.Idx) :
    ∃ t : Fin cfg1.N, (cfg1.win 3).flush t = true ∧ i ∈ ((cfg1.win 3).blk t).view.set := by
  have h0 : (i 0).val < 4096 := idx2_lt0 i
  have h1 : (i 1).val < 4096 := idx2_lt1 i
  have hN : cfg1.N = 128 := N_1
  have hT : 8 * (4 * ((i 0).val / 1024) + (i 1).val / 1024) + 7 < cfg1.N := by omega
  obtain ⟨e0, e1⟩ := idx_out _ hT
  refine ⟨⟨8 * (4 * ((i 0).val / 1024) + (i 1).val / 1024) + 7, hT⟩, (flush1_3 _).mpr (by show (8 * (4 * ((i 0).val / 1024) + (i 1).val / 1024) + 7) % 8 = 7; omega), ?_⟩
  rw [mem_blk1]
  intro a
  match a with
  | ⟨0, _⟩ =>
    show win1_3.index _ (0 : Fin 2) * 1024 ≤ (i 0).val ∧ (i 0).val < win1_3.index _ (0 : Fin 2) * 1024 + 1024
    rw [e0]; omega
  | ⟨1, _⟩ =>
    show win1_3.index _ (1 : Fin 2) * 1024 ≤ (i 1).val ∧ (i 1).val < win1_3.index _ (1 : Fin 2) * 1024 + 1024
    rw [e1]; omega

/-- After the second region entry (i, j) of the result array is the score S i j divided by ∑ m, S m i * nbr j m. -/
theorem final1 (c : Dev nD) :
    (dat1 (F := Ideal) V c).arrAt 3 cfg1.N = (Cert.Spec.normOf (V c main_v8) (V c main_arg1) : S4096x4096.Idx → EReal) :=
  (dat1 (F := Ideal) V c).arrAt_eq_of_cover 3 (Cert.Spec.normOf (V c main_v8) (V c main_arg1)) (flushed1_eq V c) cover1

end Cert.KernelIdeal.Hand

end
-- ==== Proof.KernelIdeal.Final.lean ====
/- The result array's final contents: the score region's array is the scores of the two scaled feature arrays the host
   operations left, the normalising region's array is those scores normalised by the adjacency argument as launched, and
   that is the specification's function of the four arguments. -/
import proofs.«154450_j74586402063284_1_alg».proof.Proof.KernelIdeal.Bounds
import proofs.«154450_j74586402063284_1_alg».proof.Proof.KernelIdeal.Value0
import proofs.«154450_j74586402063284_1_alg».proof.Proof.KernelIdeal.ValueHost
import proofs.«154450_j74586402063284_1_alg».proof.Proof.KernelIdeal.Value1
import proofs.«154450_j74586402063284_1_alg».proof.Proof.Spec

set_option maxRecDepth 16384

noncomputable section

open scoped BigOperators

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Idealize.ShloMosaic.ValueIdx
open Cert.KernelIdeal Cert.KernelIdeal.Gen

variable (m : (ℓ : Loc nD τ sig) → Buf (Elt Ideal) ℓ) (ρ : Dev nD → PrngReg)

/-! ## The arrays each region reads, as functions of the arguments -/

/-- The query array at the first region's entry: the features scaled by the first weight vector. -/
theorem V1_main_v3 (c : Dev nD) : (Hand.V1 (F := Ideal) m ρ c main_v3 : S128x4096.Idx → EReal)
    = Cert.Spec.scaled (m ((c : Thread nD τ).loc main_arg2)) (m ((c : Thread nD τ).loc main_arg0)) :=
  host_v3 m ρ c

/-- The key array at the first region's entry: the features scaled by the second weight vector. -/
theorem V1_main_v7 (c : Dev nD) : (Hand.V1 (F := Ideal) m ρ c main_v7 : S128x4096.Idx → EReal)
    = Cert.Spec.scaled (m ((c : Thread nD τ).loc main_arg3)) (m ((c : Thread nD τ).loc main_arg0)) :=
  host_v7 m ρ c

/-- The score array at the second region's entry: the scores of the two scaled feature arrays. -/
theorem V2_main_v8 (c : Dev nD) : (Hand.V2 (F := Ideal) m ρ c main_v8 : S4096x4096.Idx → EReal)
    = Cert.Spec.scoreOf (Cert.Spec.scaled (m ((c : Thread nD τ).loc main_arg2)) (m ((c : Thread nD τ).loc main_arg0)))
        (Cert.Spec.scaled (m ((c : Thread nD τ).loc main_arg3)) (m ((c : Thread nD τ).loc main_arg0))) := by
  refine (W2_arr (F := Ideal) m ρ c 2).trans ?_
  rw [final0 (Hand.V1 (F := Ideal) m ρ) c, V1_main_v3, V1_main_v7]

/-- The adjacency argument at the second region's entry: as launched, neither the host operations nor the first region
    write it. -/
theorem V2_main_arg1 (c : Dev nD) : Hand.V2 (F := Ideal) m ρ c main_arg1 = m ((c : Thread nD τ).loc main_arg1) :=
  (W2_of_ne (F := Ideal) m ρ c main_arg1 (by decide)).trans (host_arg1 m ρ c)

/-! ## The result -/

/-- At the end the result array holds the specification's function of the four arguments as launched. -/
theorem W3_result (c : Dev nD) : (W3 (F := Ideal) m ρ c (Proc.devRef .tc main_v9) : S4096x4096.Idx → EReal)
    = Cert.Spec.result (m ((c : Thread nD τ).loc main_arg0)) (m ((c : Thread nD τ).loc main_arg1)) (m ((c : Thread nD τ).loc main_arg2)) (m ((c : Thread nD τ).loc main_arg3)) := by
  rw [W3_main_v9, final1 (Hand.V2 (F := Ideal) m ρ) c, V2_main_v8, V2_main_arg1]
  rfl

end Cert.KernelIdeal.Hand

end
-- ==== Proof.RefValue.lean ====
/- The reference program's result, read index by index at the ideal instance. -/
import proofs.«154450_j74586402063284_1_alg».proof.Proof.Gen.ReferenceIdeal.Run
import proofs.«154450_j74586402063284_1_alg».proof.Proof.Gen.ReferenceIdeal.Read
import proofs.«154450_j74586402063284_1_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index maps of the layout operations, at an index given by its coordinates -/

/-- Broadcasting a vector along a new trailing axis and then along the columns reads the vector at the row. -/
theorem idx_v0_v1 (d : Fin 128) (n : Fin 4096) : idx_main_v0 (idx_main_v1 (ix2 d n)) = ix1 d := by
  funext a; match a with | ⟨0, _⟩ => rfl

theorem idx_v3_v4 (d : Fin 128) (n : Fin 4096) : idx_main_v3 (idx_main_v4 (ix2 d n)) = ix1 d := by
  funext a; match a with | ⟨0, _⟩ => rfl

/-- The first inner product contracts the row axis of both operands. -/
theorem lidx_v6 (n m : Fin 4096) (d : Fin 128) : lidx_main_v6 (ix2 n m) d = ix2 d n := by
  funext a; match a with | ⟨0, _⟩ => rfl | ⟨1, _⟩ => rfl

theorem ridx_v6 (n m : Fin 4096) (d : Fin 128) : ridx_main_v6 (ix2 n m) d = ix2 d m := by
  funext a; match a with | ⟨0, _⟩ => rfl | ⟨1, _⟩ => rfl

/-- The second inner product is a matrix product: row of the left operand, column of the right. -/
theorem lidx_v8 (j i k : Fin 4096) : lidx_main_v8 (ix2 j i) k = ix2 j k := by
  funext a; match a with | ⟨0, _⟩ => rfl | ⟨1, _⟩ => rfl

theorem ridx_v8 (j i k : Fin 4096) : ridx_main_v8 (ix2 j i) k = ix2 k i := by
  funext a; match a with | ⟨0, _⟩ => rfl | ⟨1, _⟩ => rfl

/-- The transposition exchanges the two coordinates. -/
theorem idx_v9 (p q : Fin 4096) : idx_main_v9 (ix2 p q) = ix2 q p := by
  funext a; match a with | ⟨0, _⟩ => rfl | ⟨1, _⟩ => rfl

/-! ## The stages as the specification's functions -/

/-- The features scaled by the first weight vector. -/
theorem v2_at (x0 : (⟨S128x4096, .f32⟩ : BufTy).Contents (Elt Ideal)) (x2 : (⟨S128, .f32⟩ : BufTy).Contents (Elt Ideal))
    (d : Fin 128) (n : Fin 4096) :
    val_main_v2 (F := Ideal) x0 x2 (ix2 d n) = Cert.Spec.scaled x2 x0 (ix2 d n) := by
  rw [val_main_v2_apply, val_main_v1_apply, val_main_v0_apply, idx_v0_v1]
  rfl

/-- The features scaled by the second weight vector. -/
theorem v5_at (x0 : (⟨S128x4096, .f32⟩ : BufTy).Contents (Elt Ideal)) (x3 : (⟨S128, .f32⟩ : BufTy).Contents (Elt Ideal))
    (d : Fin 128) (n : Fin 4096) :
    val_main_v5 (F := Ideal) x0 x3 (ix2 d n) = Cert.Spec.scaled x3 x0 (ix2 d n) := by
  rw [val_main_v5_apply, val_main_v4_apply, val_main_v3_apply, idx_v3_v4]
  rfl

/-- The exponential of the inner product of two scaled columns is the score. -/
theorem v7_at (x0 : (⟨S128x4096, .f32⟩ : BufTy).Contents (Elt Ideal)) (x2 x3 : (⟨S128, .f32⟩ : BufTy).Contents (Elt Ideal))
    (n m : Fin 4096) :
    val_main_v7 (F := Ideal) x0 x2 x3 (ix2 n m)
      = Cert.Spec.scoreOf (Cert.Spec.scaled x2 x0) (Cert.Spec.scaled x3 x0) (ix2 n m) := by
  rw [val_main_v7_apply, val_main_v6_apply, Ideal.hostUnary_exp_def]
  show Ideal.exp _ = Ideal.exp (∑ d : Fin 128, Cert.Spec.scaled x2 x0 (ix2 d n) * Cert.Spec.scaled x3 x0 (ix2 d m))
  congr 1
  refine Finset.sum_congr rfl fun d _ => ?_
  rw [lidx_v6, ridx_v6, v2_at, v5_at]

/-- The transposed matrix product is the normaliser, up to the order of the two factors of each term. -/
theorem v9_at (x0 : (⟨S128x4096, .f32⟩ : BufTy).Contents (Elt Ideal)) (x1 : (⟨S4096x4096, .f32⟩ : BufTy).Contents (Elt Ideal))
    (x2 x3 : (⟨S128, .f32⟩ : BufTy).Contents (Elt Ideal)) (p q : Fin 4096) :
    val_main_v9 (F := Ideal) x0 x1 x2 x3 (ix2 p q)
      = Cert.Spec.denomOf (Cert.Spec.scoreOf (Cert.Spec.scaled x2 x0) (Cert.Spec.scaled x3 x0)) x1 (ix2 p q) := by
  rw [val_main_v9_apply, idx_v9, val_main_v8_apply]
  show _ = ∑ m : Fin 4096,
      Cert.Spec.scoreOf (Cert.Spec.scaled x2 x0) (Cert.Spec.scaled x3 x0) (ix2 m p) * x1 (ix2 q m)
  refine Finset.sum_congr rfl fun k _ => ?_
  rw [lidx_v8, ridx_v8, v7_at, mul_comm]

/-- The reference program computes the specification's function of its four inputs. -/
theorem ref_result (x0 : (⟨S128x4096, .f32⟩ : BufTy).Contents (Elt Ideal)) (x1 : (⟨S4096x4096, .f32⟩ : BufTy).Contents (Elt Ideal)) (x2 x3 : (⟨S128, .f32⟩ : BufTy).Contents (Elt Ideal)) :
    val_main_v10 (F := Ideal) x0 x1 x2 x3 = Cert.Spec.result x0 x1 x2 x3 := by
  funext i
  obtain ⟨p, q, rfl⟩ : ∃ (p q : Fin 4096), i = ix2 p q := ⟨i 0, i 1, eq_ix2 i⟩
  rw [val_main_v10_apply, v7_at, v9_at, Ideal.hostDivf_def]
  rfl

end Cert.ReferenceIdeal.RefValue

end
-- ==== Proof.lean ====
/- The certificate of the edge-normalised attention scores kernel against its reference, over the extended reals.
   Both programs scale the feature matrix f (128 × 4096) row by row by wq and by wk, form the score matrix
   S n m = exp (∑ d, (wq d · f d n) · (wk d · f d m)), and return S i j / ∑ m, S m i · nbr j m. The kernel does it in two
   pipelined regions: the first stores S block by block (1024 × 1024 blocks); the second walks the contracted nodes m in
   eight blocks of 512, adding each block's products to an accumulator that starts at zero, and divides at the last
   block. Over the extended reals a change of float format is the identity, addition is commutative and associative (so
   the eight partial sums are the whole sum, with no finiteness needed) and multiplication is commutative (the reference
   multiplies nbr j m · S m i). The three frames follow from runs that track every unscoped buffer: no host operation and
   no region writes an argument. Nothing was rewritten when the kernel was idealized, so there is nothing to preserve. -/
import proofs.«154450_j74586402063284_1_alg».proof.Defs
import proofs.«154450_j74586402063284_1_alg».proof.Proof.Gen.Kernel
import proofs.«154450_j74586402063284_1_alg».proof.Proof.Gen.KernelIdeal
import proofs.«154450_j74586402063284_1_alg».proof.Proof.Gen.ReferenceIdeal
import proofs.«154450_j74586402063284_1_alg».proof.Proof.Gen.Pre_finite_inputs
import proofs.«154450_j74586402063284_1_alg».proof.Proof.Gen.ReferenceIdeal.Run
import proofs.«154450_j74586402063284_1_alg».proof.Proof.Gen.ReferenceIdeal.Read
import proofs.«154450_j74586402063284_1_alg».proof.Proof.Kernel.Launch
import proofs.«154450_j74586402063284_1_alg».proof.Proof.Kernel.Args
import proofs.«154450_j74586402063284_1_alg».proof.Proof.KernelIdeal.Launch
import proofs.«154450_j74586402063284_1_alg».proof.Proof.KernelIdeal.Args
import proofs.«154450_j74586402063284_1_alg».proof.Proof.KernelIdeal.Final
import proofs.«154450_j74586402063284_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves its four arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W3_main_arg0 m ρ c),
     (h c _ (Cert.Kernel.Hand.mem_uc Cert.Kernel.main_arg1 (by decide))).trans (Cert.Kernel.Hand.W3_main_arg1 m ρ c),
     (h c _ (Cert.Kernel.Hand.mem_uc Cert.Kernel.main_arg2 (by decide))).trans (Cert.Kernel.Hand.W3_main_arg2 m ρ c),
     (h c _ (Cert.Kernel.Hand.mem_uc Cert.Kernel.main_arg3 (by decide))).trans (Cert.Kernel.Hand.W3_main_arg3 m ρ c)⟩)
    (Cert.Kernel.Hand.run_main (F := Bits) m ρ)

/-- So does the idealized kernel. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W3_main_arg0 m ρ c),
     (h c _ (Cert.KernelIdeal.Hand.mem_uc Cert.KernelIdeal.main_arg1 (by decide))).trans (Cert.KernelIdeal.Hand.W3_main_arg1 m ρ c),
     (h c _ (Cert.KernelIdeal.Hand.mem_uc Cert.KernelIdeal.main_arg2 (by decide))).trans (Cert.KernelIdeal.Hand.W3_main_arg2 m ρ c),
     (h c _ (Cert.KernelIdeal.Hand.mem_uc Cert.KernelIdeal.main_arg3 (by decide))).trans (Cert.KernelIdeal.Hand.W3_main_arg3 m ρ c)⟩)
    (Cert.KernelIdeal.Hand.run_main (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the result array at the same function of
    the arguments. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v9 (by decide))).trans (Cert.KernelIdeal.Hand.W3_result m ρ c),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c)⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.ref_result,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
